-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x3 : Shape := ⟨2, ![1000000, 3]⟩
abbrev S8000000 : Shape := ⟨1, ![8000000]⟩
abbrev S8000000x2 : Shape := ⟨2, ![8000000, 2]⟩
abbrev S_ : Shape := ⟨0, ![]⟩

class Facts : Prop where
  bcast_S_S1000000x3 : S_.BroadcastsInDim S1000000x3 (![] : Fin 0 → Fin S1000000x3.rank)
  reducesTo_S1000000x3_S_d0_1 : S1000000x3.ReducesTo [0, 1] S_
  h_S_ : 0 < S_.numel
  bcast_S_S8000000 : S_.BroadcastsInDim S8000000 (![] : Fin 0 → Fin S8000000.rank)
  reducesTo_S8000000_S_d0 : S8000000.ReducesTo [0] S_
  bcast_S_S8000000x2 : S_.BroadcastsInDim S8000000x2 (![] : Fin 0 → Fin S8000000x2.rank)
  reducesTo_S8000000x2_S_d0_1 : S8000000x2.ReducesTo [0, 1] S_

variable [Facts]

def fn_part1 {F : FTy → Type} [FloatOps F] (main_arg3 : IVec S8000000x2 32) (main_v13 : IVec S_ 1) (main_v15 : IVec S8000000x2 1) (main_c_5 : IVec S_ 1) : IVec S_ 1 :=
  let main_v16 : IVec S_ 1 := (fun x v => Host.reduce IntOp.andi x v reducesTo_S8000000x2_S_d0_1 h_S_) main_v15 main_c_5
  let main_v17 : IVec S_ 1 := andi main_v13 main_v16
  let main_c_6 : IVec S_ 32 := constantI S_ 32 1000000#32
  let main_v18 : IVec S8000000x2 32 := broadcastInDim S8000000x2 ![] bcast_S_S8000000x2 main_c_6
  let main_v19 : IVec S8000000x2 1 := cmpi .slt main_arg3 main_v18
  let main_c_7 : IVec S_ 1 := constantI S_ 1 1#1
  let main_v20 : IVec S_ 1 := (fun x v => Host.reduce IntOp.andi x v reducesTo_S8000000x2_S_d0_1 h_S_) main_v19 main_c_7
  let main_v21 : IVec S_ 1 := andi main_v17 main_v20
  main_v21

def fn {F : FTy → Type} [FloatOps F] (main_arg0 : FVec F S1000000x3 .f32) (main_arg1 : FVec F S8000000 .f32) (main_arg2 : FVec F S8000000 .f32) (main_arg3 : IVec S8000000x2 32) : IVec S_ 1 :=
  let main_v0 : FVec F S1000000x3 .f32 := Host.absf main_arg0
  let main_cst : FVec F S_ .f32 := constant S_ .f32 0x7F800000#32
  let main_v1 : FVec F S1000000x3 .f32 := broadcastInDim S1000000x3 ![] bcast_S_S1000000x3 main_cst
  let main_v2 : IVec S1000000x3 1 := cmpf .olt main_v0 main_v1
  let main_c : IVec S_ 1 := constantI S_ 1 1#1
  let main_v3 : IVec S_ 1 := (fun x v => Host.reduce IntOp.andi x v reducesTo_S1000000x3_S_d0_1 h_S_) main_v2 main_c
  let main_v4 : FVec F S8000000 .f32 := Host.absf main_arg1
  let main_cst_0 : FVec F S_ .f32 := constant S_ .f32 0x7F800000#32
  let main_v5 : FVec F S8000000 .f32 := broadcastInDim S8000000 ![] bcast_S_S8000000 main_cst_0
  let main_v6 : IVec S8000000 1 := cmpf .olt main_v4 main_v5
  let main_c_1 : IVec S_ 1 := constantI S_ 1 1#1
  let main_v7 : IVec S_ 1 := (fun x v => Host.reduce IntOp.andi x v reducesTo_S8000000_S_d0 h_S_) main_v6 main_c_1
  let main_v8 : IVec S_ 1 := andi main_v3 main_v7
  let main_v9 : FVec F S8000000 .f32 := Host.absf main_arg2
  let main_cst_2 : FVec F S_ .f32 := constant S_ .f32 0x7F800000#32
  let main_v10 : FVec F S8000000 .f32 := broadcastInDim S8000000 ![] bcast_S_S8000000 main_cst_2
  let main_v11 : IVec S8000000 1 := cmpf .olt main_v9 main_v10
  let main_c_3 : IVec S_ 1 := constantI S_ 1 1#1
  let main_v12 : IVec S_ 1 := (fun x v => Host.reduce IntOp.andi x v reducesTo_S8000000_S_d0 h_S_) main_v11 main_c_3
  let main_v13 : IVec S_ 1 := andi main_v8 main_v12
  let main_c_4 : IVec S_ 32 := constantI S_ 32 0#32
  let main_v14 : IVec S8000000x2 32 := broadcastInDim S8000000x2 ![] bcast_S_S8000000x2 main_c_4
  let main_v15 : IVec S8000000x2 1 := cmpi .sge main_arg3 main_v14
  let main_c_5 : IVec S_ 1 := constantI S_ 1 1#1
  fn_part1 (F := F) main_arg3 main_v13 main_v15 main_c_5
-- ==== Kernel.lean ====
abbrev S1000000x3 : Shape := ⟨2, ![1000000, 3]⟩
abbrev S8000000 : Shape := ⟨1, ![8000000]⟩
abbrev S8000000x2 : Shape := ⟨2, ![8000000, 2]⟩
abbrev S8000000x1 : Shape := ⟨2, ![8000000, 1]⟩
abbrev S_ : Shape := ⟨0, ![]⟩
abbrev S1 : Shape := ⟨1, ![1]⟩
abbrev S1x1 : Shape := ⟨2, ![1, 1]⟩
abbrev S8000000x3 : Shape := ⟨2, ![8000000, 3]⟩
abbrev S625x12800 : Shape := ⟨2, ![625, 12800]⟩
abbrev S625x1280 : Shape := ⟨2, ![625, 1280]⟩
abbrev S625 : Shape := ⟨1, ![625]⟩
abbrev S625x1 : Shape := ⟨2, ![625, 1]⟩

abbrev nBuf : Space → Nat
  | .hbm => 65
  | .vmem => 8
  | .smem => 0
  | _ => 0

abbrev bufTy : (tb : Table) → Fin (tcTables nBuf tb) → BufTy
  | .hbm, ⟨0, _⟩ => ⟨S1000000x3, .f32⟩
  | .hbm, ⟨1, _⟩ => ⟨S8000000, .f32⟩
  | .hbm, ⟨2, _⟩ => ⟨S8000000, .f32⟩
  | .hbm, ⟨3, _⟩ => ⟨S8000000x2, .i32⟩
  | .hbm, ⟨4, _⟩ => ⟨S8000000x1, .i32⟩
  | .hbm, ⟨5, _⟩ => ⟨S8000000, .i32⟩
  | .hbm, ⟨6, _⟩ => ⟨S8000000x1, .i32⟩
  | .hbm, ⟨7, _⟩ => ⟨S8000000, .i32⟩
  | .hbm, ⟨8, _⟩ => ⟨S_, .i32⟩
  | .hbm, ⟨9, _⟩ => ⟨S8000000, .i32⟩
  | .hbm, ⟨10, _⟩ => ⟨S8000000, .i1⟩
  | .hbm, ⟨11, _⟩ => ⟨S_, .i32⟩
  | .hbm, ⟨12, _⟩ => ⟨S8000000, .i32⟩
  | .hbm, ⟨13, _⟩ => ⟨S8000000, .i32⟩
  | .hbm, ⟨14, _⟩ => ⟨S8000000, .i32⟩
  | .hbm, ⟨15, _⟩ => ⟨S8000000x1, .i32⟩
  | .hbm, ⟨16, _⟩ => ⟨S1, .i32⟩
  | .hbm, ⟨17, _⟩ => ⟨S_, .i32⟩
  | .hbm, ⟨18, _⟩ => ⟨S8000000x1, .i32⟩
  | .hbm, ⟨19, _⟩ => ⟨S8000000x1, .i1⟩
  | .hbm, ⟨20, _⟩ => ⟨S1x1, .i32⟩
  | .hbm, ⟨21, _⟩ => ⟨S8000000x1, .i32⟩
  | .hbm, ⟨22, _⟩ => ⟨S8000000x1, .i1⟩
  | .hbm, ⟨23, _⟩ => ⟨S8000000x1, .i1⟩
  | .hbm, ⟨24, _⟩ => ⟨S_, .i1⟩
  | .hbm, ⟨25, _⟩ => ⟨S8000000, .i1⟩
  | .hbm, ⟨26, _⟩ => ⟨S8000000x3, .f32⟩
  | .hbm, ⟨27, _⟩ => ⟨S8000000x3, .i1⟩
  | .hbm, ⟨28, _⟩ => ⟨S_, .f32⟩
  | .hbm, ⟨29, _⟩ => ⟨S8000000x3, .f32⟩
  | .hbm, ⟨30, _⟩ => ⟨S8000000x3, .f32⟩
  | .hbm, ⟨31, _⟩ => ⟨S_, .i32⟩
  | .hbm, ⟨32, _⟩ => ⟨S8000000, .i32⟩
  | .hbm, ⟨33, _⟩ => ⟨S8000000, .i1⟩
  | .hbm, ⟨34, _⟩ => ⟨S_, .i32⟩
  | .hbm, ⟨35, _⟩ => ⟨S8000000, .i32⟩
  | .hbm, ⟨36, _⟩ => ⟨S8000000, .i32⟩
  | .hbm, ⟨37, _⟩ => ⟨S8000000, .i32⟩
  | .hbm, ⟨38, _⟩ => ⟨S8000000x1, .i32⟩
  | .hbm, ⟨39, _⟩ => ⟨S1, .i32⟩
  | .hbm, ⟨40, _⟩ => ⟨S_, .i32⟩
  | .hbm, ⟨41, _⟩ => ⟨S8000000x1, .i32⟩
  | .hbm, ⟨42, _⟩ => ⟨S8000000x1, .i1⟩
  | .hbm, ⟨43, _⟩ => ⟨S1x1, .i32⟩
  | .hbm, ⟨44, _⟩ => ⟨S8000000x1, .i32⟩
  | .hbm, ⟨45, _⟩ => ⟨S8000000x1, .i1⟩
  | .hbm, ⟨46, _⟩ => ⟨S8000000x1, .i1⟩
  | .hbm, ⟨47, _⟩ => ⟨S_, .i1⟩
  | .hbm, ⟨48, _⟩ => ⟨S8000000, .i1⟩
  | .hbm, ⟨49, _⟩ => ⟨S8000000x3, .f32⟩
  | .hbm, ⟨50, _⟩ => ⟨S8000000x3, .i1⟩
  | .hbm, ⟨51, _⟩ => ⟨S_, .f32⟩
  | .hbm, ⟨52, _⟩ => ⟨S8000000x3, .f32⟩
  | .hbm, ⟨53, _⟩ => ⟨S8000000x3, .f32⟩
  | .hbm, ⟨54, _⟩ => ⟨S8000000x3, .f32⟩
  | .hbm, ⟨55, _⟩ => ⟨S8000000x3, .f32⟩
  | .hbm, ⟨56, _⟩ => ⟨S_, .f32⟩
  | .hbm, ⟨57, _⟩ => ⟨S8000000, .f32⟩
  | .hbm, ⟨58, _⟩ => ⟨S625x12800, .f32⟩
  | .hbm, ⟨59, _⟩ => ⟨S625x12800, .f32⟩
  | .hbm, ⟨60, _⟩ => ⟨S625x12800, .f32⟩
  | .hbm, ⟨61, _⟩ => ⟨S1x1, .f32⟩
  | .hbm, ⟨62, _⟩ => ⟨S_, .f32⟩
  | .hbm, ⟨63, _⟩ => ⟨S_, .f32⟩
  | .hbm, ⟨64, _⟩ => ⟨S_, .f32⟩
  | .local _ .vmem, ⟨0, _⟩ => ⟨S625x1280, .f32⟩
  | .local _ .vmem, ⟨1, _⟩ => ⟨S625x1280, .f32⟩
  | .local _ .vmem, ⟨2, _⟩ => ⟨S625x1280, .f32⟩
  | .local _ .vmem, ⟨3, _⟩ => ⟨S625x1280, .f32⟩
  | .local _ .vmem, ⟨4, _⟩ => ⟨S625x1280, .f32⟩
  | .local _ .vmem, ⟨5, _⟩ => ⟨S625x1280, .f32⟩
  | .local _ .vmem, ⟨6, _⟩ => ⟨S1x1, .f32⟩
  | .local _ .vmem, ⟨7, _⟩ => ⟨S1x1, .f32⟩
  | _, _ => ⟨S1000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v4 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩
abbrev main_cst : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_v13 : Ref sig .tc := ⟨.hbm, 62, rfl⟩
abbrev main_cst_0 : Ref sig .tc := ⟨.hbm, 63, rfl⟩
abbrev main_v14 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v22 : BitVec 1 := Scalar.cmpi .eq arg0 c9_i32
  let v23 : BitVec 32 := Scalar.extui v22
  let c0_i32_11 : BitVec 32 := 0#32
  let v24 : BitVec 1 := Scalar.cmpi .ne v23 c0_i32_11
  v24

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S625x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S625x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S625x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  slices_S8000000x2_S8000000x1_0_0 : S8000000x2.Slices ![0, 0] S8000000x1
  shapeCasts_S8000000x1_S8000000 : S8000000x1.ShapeCasts S8000000
  slices_S8000000x2_S8000000x1_0_1 : S8000000x2.Slices ![0, 1] S8000000x1
  bcast_S_S8000000 : S_.BroadcastsInDim S8000000 (![] : Fin 0 → Fin S8000000.rank)
  bcast_S8000000_S8000000x1_0 : S8000000.BroadcastsInDim S8000000x1 (![0] : Fin 1 → Fin S8000000x1.rank)
  bcast_S_S8000000x1 : S_.BroadcastsInDim S8000000x1 (![] : Fin 0 → Fin S8000000x1.rank)
  bcast_S1_S1x1_1 : S1.BroadcastsInDim S1x1 (![1] : Fin 1 → Fin S1x1.rank)
  bcast_S1x1_S8000000x1_0_1 : S1x1.BroadcastsInDim S8000000x1 (![0, 1] : Fin 2 → Fin S8000000x1.rank)
  reducesTo_S8000000x1_S8000000_d1 : S8000000x1.ReducesTo [1] S8000000
  h_S_ : 0 < S_.numel
  bcast_S8000000_S8000000x3_0 : S8000000.BroadcastsInDim S8000000x3 (![0] : Fin 1 → Fin S8000000x3.rank)
  bcast_S_S8000000x3 : S_.BroadcastsInDim S8000000x3 (![] : Fin 0 → Fin S8000000x3.rank)
  reducesTo_S8000000x3_S8000000_d1 : S8000000x3.ReducesTo [1] S8000000
  shapeCasts_S8000000_S625x12800 : S8000000.ShapeCasts S625x12800
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S625x1280_S625x1280_0_0 : ∀ a, (![0, 0] : Fin 2 → Nat) a + S625x1280.size a ≤ S625x1280.size a
  h_S625x1280 : 0 < S625x1280.numel
  shapeCasts_S625x1280_S625x1280 : S625x1280.ShapeCasts S625x1280
  reduces_S625x1280_S625 : S625x1280.Reduces [1] S625
  shapeCasts_S625_S625x1 : S625.ShapeCasts S625x1
  reduces_S625x1_S1 : S625x1.Reduces [0] S1
  shapeCasts_S1_S1x1 : S1.ShapeCasts S1x1
  shapeCasts_S1x1_S_ : S1x1.ShapeCasts S_
  gather_S1000000x3_S8000000x1_S8000000x3_1_0_n_n_0_1_13_wf : GatherDims.WF S1000000x3 S8000000x1 S8000000x3 [1] [0] [] [0] [] 1 ![1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S625x1280.size a ≤ S625x12800.size a
  hwx0_0 : ∀ i : grid0.Coords, EltTy.bits .f32 = 32 ∨ (Rect.block (s := S625x12800) S625x1280.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S625x1280.size a ≤ S625x12800.size a
  hwx0_1 : ∀ i : grid0.Coords, EltTy.bits .f32 = 32 ∨ (Rect.block (s := S625x12800) S625x1280.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S625x1280.size a ≤ S625x12800.size a
  hwx0_2 : ∀ i : grid0.Coords, EltTy.bits .f32 = 32 ∨ (Rect.block (s := S625x12800) S625x1280.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def gather_S1000000x3_S8000000x1_S8000000x3_1_0_n_n_0_1_13 : GatherDims S1000000x3 S8000000x1 S8000000x3 where
  offsetDims := [1]
  collapsedSliceDims := [0]
  operandBatchingDims := []
  startIndicesBatchingDims := []
  startIndexMap := [0]
  indexVectorDim := 1
  sliceSizes := ![1, 3]
  wf := gather_S1000000x3_S8000000x1_S8000000x3_1_0_n_n_0_1_13_wf

abbrev win0_0 : Pipeline.Window sig grid0 :=
  Pipeline.Window.ofSpec (Memref.whole main_v9) S625x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S625x1280.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S625x1280.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S1000000x3 : Shape := ⟨2, ![1000000, 3]⟩
abbrev S8000000 : Shape := ⟨1, ![8000000]⟩
abbrev S8000000x2 : Shape := ⟨2, ![8000000, 2]⟩
abbrev S8000000x1 : Shape := ⟨2, ![8000000, 1]⟩
abbrev S_ : Shape := ⟨0, ![]⟩
abbrev S8000000x3 : Shape := ⟨2, ![8000000, 3]⟩

abbrev nBuf : Space → Nat
  | .hbm => 38
  | .vmem => 0
  | .smem => 0
  | _ => 0

abbrev bufTy : (tb : Table) → Fin (tcTables nBuf tb) → BufTy
  | .hbm, ⟨0, _⟩ => ⟨S1000000x3, .f32⟩
  | .hbm, ⟨1, _⟩ => ⟨S8000000, .f32⟩
  | .hbm, ⟨2, _⟩ => ⟨S8000000, .f32⟩
  | .hbm, ⟨3, _⟩ => ⟨S8000000x2, .i32⟩
  | .hbm, ⟨4, _⟩ => ⟨S8000000x1, .i32⟩
  | .hbm, ⟨5, _⟩ => ⟨S8000000, .i32⟩
  | .hbm, ⟨6, _⟩ => ⟨S_, .i32⟩
  | .hbm, ⟨7, _⟩ => ⟨S8000000, .i32⟩
  | .hbm, ⟨8, _⟩ => ⟨S8000000, .i1⟩
  | .hbm, ⟨9, _⟩ => ⟨S_, .i32⟩
  | .hbm, ⟨10, _⟩ => ⟨S8000000, .i32⟩
  | .hbm, ⟨11, _⟩ => ⟨S8000000, .i32⟩
  | .hbm, ⟨12, _⟩ => ⟨S8000000, .i32⟩
  | .hbm, ⟨13, _⟩ => ⟨S8000000x1, .i32⟩
  | .hbm, ⟨14, _⟩ => ⟨S8000000x3, .f32⟩
  | .hbm, ⟨15, _⟩ => ⟨S8000000x1, .i32⟩
  | .hbm, ⟨16, _⟩ => ⟨S8000000, .i32⟩
  | .hbm, ⟨17, _⟩ => ⟨S_, .i32⟩
  | .hbm, ⟨18, _⟩ => ⟨S8000000, .i32⟩
  | .hbm, ⟨19, _⟩ => ⟨S8000000, .i1⟩
  | .hbm, ⟨20, _⟩ => ⟨S_, .i32⟩
  | .hbm, ⟨21, _⟩ => ⟨S8000000, .i32⟩
  | .hbm, ⟨22, _⟩ => ⟨S8000000, .i32⟩
  | .hbm, ⟨23, _⟩ => ⟨S8000000, .i32⟩
  | .hbm, ⟨24, _⟩ => ⟨S8000000x1, .i32⟩
  | .hbm, ⟨25, _⟩ => ⟨S8000000x3, .f32⟩
  | .hbm, ⟨26, _⟩ => ⟨S8000000x3, .f32⟩
  | .hbm, ⟨27, _⟩ => ⟨S8000000x3, .f32⟩
  | .hbm, ⟨28, _⟩ => ⟨S_, .f32⟩
  | .hbm, ⟨29, _⟩ => ⟨S8000000, .f32⟩
  | .hbm, ⟨30, _⟩ => ⟨S8000000, .f32⟩
  | .hbm, ⟨31, _⟩ => ⟨S8000000, .f32⟩
  | .hbm, ⟨32, _⟩ => ⟨S8000000, .f32⟩
  | .hbm, ⟨33, _⟩ => ⟨S8000000, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S1000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  slices_S8000000x2_S8000000x1_0_0 : S8000000x2.Slices ![0, 0] S8000000x1
  shapeCasts_S8000000x1_S8000000 : S8000000x1.ShapeCasts S8000000
  bcast_S_S8000000 : S_.BroadcastsInDim S8000000 (![] : Fin 0 → Fin S8000000.rank)
  bcast_S8000000_S8000000x1_0 : S8000000.BroadcastsInDim S8000000x1 (![0] : Fin 1 → Fin S8000000x1.rank)
  slices_S8000000x2_S8000000x1_0_1 : S8000000x2.Slices ![0, 1] S8000000x1
  reducesTo_S8000000x3_S8000000_d1 : S8000000x3.ReducesTo [1] S8000000
  h_S_ : 0 < S_.numel
  reducesTo_S8000000_S_d0 : S8000000.ReducesTo [0] S_
  gather_S1000000x3_S8000000x1_S8000000x3_1_0_n_n_0_1_13_wf : GatherDims.WF S1000000x3 S8000000x1 S8000000x3 [1] [0] [] [0] [] 1 ![1, 3]

variable [Facts₀]

def gather_S1000000x3_S8000000x1_S8000000x3_1_0_n_n_0_1_13 : GatherDims S1000000x3 S8000000x1 S8000000x3 where
  offsetDims := [1]
  collapsedSliceDims := [0]
  operandBatchingDims := []
  startIndicesBatchingDims := []
  startIndexMap := [0]
  indexVectorDim := 1
  sliceSizes := ![1, 3]
  wf := gather_S1000000x3_S8000000x1_S8000000x3_1_0_n_n_0_1_13_wf

class Facts : Prop extends Facts₀ where

variable [Facts]
-- ==== Proof.EnergySpec.lean ====
/-
  The spring energy of a mesh as ONE function of the argument arrays over the extended reals.

  An edge `e` joins the two vertices its pair of index words names (each word read signed and clamped into the
  vertex table); its squared length is `0 + ∑ⱼ (x[v₀, j] - x[v₁, j])²` over the three coordinates, its term
  `k[e] · (q - l0[e]²) · (q - l0[e]²)`, and the energy is `½ · (0 + ∑ₑ term e)` over the 8,000,000 edges.

  Two facts about sums in a commutative monoid, both free of any finiteness (only `+` is regrouped):
  * the edges laid out row-major as 625 rows of 12,800 and cut into ten strips of 1,280 columns are each edge once, so
    the sum over strips, rows of a strip and columns of a strip is the sum over all edges;
  * an accumulator started at `z + p 0` and fed `p 1, …, p n` in turn holds `z + ∑ₜ p t`.
-/
import Idealize.ShloMosaic.PureOps.Ideal
import Idealize.ShloMosaic.Lib.ValueIdx
import Mathlib.Algebra.BigOperators.Fin
import Mathlib.Algebra.BigOperators.Group.Finset.Sigma

open scoped BigOperators

noncomputable section

namespace SpringEnergy

open Idealize.ShloMosaic Idealize.ShloMosaic.ValueIdx

/-- The vertex table, the per-edge arrays, the index pairs. -/
abbrev SV : Shape := ⟨2, ![1000000, 3]⟩
abbrev SE : Shape := ⟨1, ![8000000]⟩
abbrev SI : Shape := ⟨2, ![8000000, 2]⟩

/-- The vertex end `a` of edge `e` names: the index word read signed and clamped into `[0, 999999]`. -/
def vertex (idx : IVec SI 32) (e : Fin 8000000) (a : Fin 2) : Fin 1000000 :=
  ⟨min (idx (ix2 e a)).toInt.toNat (1000000 - 1), by omega⟩

/-- Coordinate `j` of the difference of an edge's two end points. -/
def diff (x : FVec Ideal SV .f32) (idx : IVec SI 32) (e : Fin 8000000) (j : Fin 3) : EReal :=
  x (ix2 (vertex idx e 0) j) - x (ix2 (vertex idx e 1) j)

/-- The squared length of edge `e`: the sum of the three squared coordinate differences, from zero. -/
def sqLen (x : FVec Ideal SV .f32) (idx : IVec SI 32) (e : Fin 8000000) : EReal :=
  Ideal.ofBits .f32 0x00000000#32 + ∑ j : Fin 3, diff x idx e j * diff x idx e j

/-- The weighted squared residual of a squared length `q` against rest length `l` under stiffness `s`. -/
def residual (s q l : EReal) : EReal := s * (q - l * l) * (q - l * l)

/-- Edge `e`'s term of the energy. -/
def edgeTerm (x : FVec Ideal SV .f32) (l0 k : FVec Ideal SE .f32) (idx : IVec SI 32) (e : Fin 8000000) : EReal :=
  residual (k (ix1 e)) (sqLen x idx e) (l0 (ix1 e))

/-- The energy: half the sum of the edges' terms, from zero. -/
def energy (x : FVec Ideal SV .f32) (l0 k : FVec Ideal SE .f32) (idx : IVec SI 32) : EReal :=
  Ideal.ofBits .f32 0x3F000000#32 * (Ideal.ofBits .f32 0x00000000#32 + ∑ e : Fin 8000000, edgeTerm x l0 k idx e)

/-- Every index word names a vertex of the table: its signed value lies in `[0, 1000000)`. -/
def InRange (idx : IVec SI 32) : Prop := ∀ j : SI.Idx, 0 ≤ (idx j).toInt ∧ (idx j).toInt < 1000000

/-- The edge at row `r`, column `c` of the 625 × 12,800 row-major arrangement of the edges. -/
def flat (r : Fin 625) (c : Fin 12800) : Fin 8000000 := ⟨12800 * r.val + c.val, by omega⟩

/-! ## Ten strips of 625 × 1,280 are all the edges -/

/-- The edge at row `r`, column `c` of strip `t`: row-major position `12800 r + (1280 t + c)`. -/
def cell (t : Fin 10) (r : Fin 625) (c : Fin 1280) : Fin 8000000 :=
  ⟨12800 * r.val + (1280 * t.val + c.val), by omega⟩

/-- Column `c` of strip `t` is column `1280 t + c` of the arrangement. -/
theorem flat_strip (t : Fin 10) (r : Fin 625) (c : Fin 1280) (h : 1280 * t.val + c.val < 12800) :
    flat r ⟨1280 * t.val + c.val, h⟩ = cell t r c := rfl

/-- Strip, row and column of an edge, and back. -/
def cellEquiv : Fin 10 × Fin 625 × Fin 1280 ≃ Fin 8000000 where
  toFun p := cell p.1 p.2.1 p.2.2
  invFun e := (⟨e.val % 12800 / 1280, by omega⟩, ⟨e.val / 12800, by omega⟩, ⟨e.val % 1280, by omega⟩)
  left_inv := by
    rintro ⟨t, r, c⟩
    refine Prod.ext (Fin.ext ?_) (Prod.ext (Fin.ext ?_) (Fin.ext ?_))
    · show (12800 * r.val + (1280 * t.val + c.val)) % 12800 / 1280 = t.val
      omega
    · show (12800 * r.val + (1280 * t.val + c.val)) / 12800 = r.val
      omega
    · show (12800 * r.val + (1280 * t.val + c.val)) % 1280 = c.val
      omega
  right_inv := by
    intro e
    refine Fin.ext ?_
    show 12800 * (e.val / 12800) + (1280 * (e.val % 12800 / 1280) + e.val % 1280) = e.val
    omega

/-- Summing strip by strip, row by row, column by column is summing over all edges. -/
theorem sum_strips {M : Type*} [AddCommMonoid M] (f : Fin 8000000 → M) :
    ∑ t : Fin 10, ∑ r : Fin 625, ∑ c : Fin 1280, f (cell t r c) = ∑ e : Fin 8000000, f e := by
  rw [← cellEquiv.sum_comp f, Fintype.sum_prod_type]
  refine Finset.sum_congr rfl fun t _ => ?_
  rw [Fintype.sum_prod_type]
  rfl

/-! ## An accumulator fed in turn holds the sum -/

/-- The accumulator after step `n`: started at `z + p 0`, then `+ p (n + 1)`. -/
def runningSum {M : Type*} [AddCommMonoid M] (z : M) (p : ℕ → M) : ℕ → M
  | 0 => z + p 0
  | n + 1 => runningSum z p n + p (n + 1)

theorem runningSum_eq {M : Type*} [AddCommMonoid M] (z : M) (p : ℕ → M) (n : ℕ) :
    runningSum z p n = z + ∑ t ∈ Finset.range (n + 1), p t := by
  induction n with
  | zero => simp [runningSum]
  | succ n ih => rw [runningSum, ih, Finset.sum_range_succ _ (n + 1), add_assoc]

/-- After the tenth step the accumulator holds `z` plus the ten parts. -/
theorem runningSum_nine {M : Type*} [AddCommMonoid M] (z : M) (p : ℕ → M) :
    runningSum z p 9 = z + ∑ t : Fin 10, p t.val := by
  rw [runningSum_eq, Fin.sum_univ_eq_sum_range (fun t => p t) 10]

end SpringEnergy

end
-- ==== Proof.LibRowSum.lean ====
/-
  A row sum kept as a column, read at the extended reals: for a rectangle `v : [n, d]`, the lane reduction over axis 1
  followed by the cast of the `[n]` result to `[n, 1]` (jnp's `sum(axis=1, keepdims=True)`) holds at `(r, 0)` the sum
  over the `d` columns of row `r`.
-/
import Idealize.ShloMosaic.PureOps.Ideal.Laws
import Idealize.ShloMosaic.Lib.Pipeline.Value
import Idealize.ShloMosaic.Lib.ValueIdx

open scoped BigOperators

namespace Idealize.ShloMosaic.RowSum

open Idealize.ShloMosaic Idealize.ShloMosaic.ValueIdx

/-- Over row `r` of the reduced vector, the source index with column `k` put back is `(r, k)`. -/
theorem lift_row {n d : Nat} (h : (⟨2, ![n, d]⟩ : Shape).Reduces [1] ⟨1, ![n]⟩) (r : Fin n) (k : Fin d) :
    h.lift (ix1 r) k = ix2 r k := by
  funext c
  refine Fin.ext ?_
  match c with
  | ⟨0, _⟩ => rfl
  | ⟨1, _⟩ => rfl

/-- The lane sum over axis 1 at row `r`: the sum of the row's `d` entries. -/
theorem rowSum_apply {n d : Nat} (v : FVec Ideal ⟨2, ![n, d]⟩ .f32) (acc : BitVec 32)
    (h : (⟨2, ![n, d]⟩ : Shape).Reduces [1] ⟨1, ![n]⟩) (hφ : FKind.Formats .f32) (hacc : acc = FKind.add.neutral .f32 hφ)
    (r : Fin n) :
    multiReduction .add [1] ⟨1, ![n]⟩ v acc h hφ hacc (ix1 r) = ∑ k : Fin d, v (ix2 r k) :=
  (Ideal.multiReduction_add_single v acc h hφ hacc (ix1 r)).trans
    (Finset.sum_congr rfl fun k _ => congrArg v (lift_row h r k))

/-- The same sum kept as a column `[n, 1]`, read at `(r, 0)`. -/
theorem rowSum_keepdims_apply {n d : Nat} (v : FVec Ideal ⟨2, ![n, d]⟩ .f32) (acc : BitVec 32)
    (h : (⟨2, ![n, d]⟩ : Shape).Reduces [1] ⟨1, ![n]⟩) (hφ : FKind.Formats .f32) (hacc : acc = FKind.add.neutral .f32 hφ)
    (hc : (⟨1, ![n]⟩ : Shape).ShapeCasts ⟨2, ![n, 1]⟩) (r : Fin n) (z : Fin 1) :
    shapeCast ⟨2, ![n, 1]⟩ (multiReduction .add [1] ⟨1, ![n]⟩ v acc h hφ hacc) hc (ix2 r z)
      = ∑ k : Fin d, v (ix2 r k) := by
  rw [shapeCast_apply _ hc (ix2 r z) (ix1 r) (by
    rw [Shape.rowMajor_val_one, Shape.rowMajor_val_two]
    show r.val = r.val * 1 + z.val
    omega)]
  exact rowSum_apply v acc h hφ hacc r

end Idealize.ShloMosaic.RowSum
-- ==== Proof.LibSumAll.lean ====
/-
  The sum of every entry of a rectangle `v : [n, d]`, taken as jnp takes it when both axes are kept: the lane
  reduction over axis 1 kept as a column `[n, 1]`, then the reduction of that column over axis 0 kept as `[1, 1]`.
  At the extended reals its one entry is `∑ r, ∑ k, v (r, k)`.
-/
import proofs.«426764_j10230612099764_2_alg».proof.Proof.LibRowSum

open scoped BigOperators

namespace Idealize.ShloMosaic.SumAll

open Idealize.ShloMosaic Idealize.ShloMosaic.ValueIdx

/-- Over the one entry `z` of the reduced vector, the source index with row `r` put back is `(r, z)`. -/
theorem lift_col {n : Nat} (h : (⟨2, ![n, 1]⟩ : Shape).Reduces [0] ⟨1, ![1]⟩) (z : Fin 1) (r : Fin n) :
    h.lift (ix1 z) r = ix2 r z := by
  funext c
  refine Fin.ext ?_
  match c with
  | ⟨0, _⟩ => rfl
  | ⟨1, _⟩ => rfl

/-- The reduction of a column `[n, 1]` over axis 0: the sum of its `n` entries. -/
theorem colSum_apply {n : Nat} (v : FVec Ideal ⟨2, ![n, 1]⟩ .f32) (acc : BitVec 32)
    (h : (⟨2, ![n, 1]⟩ : Shape).Reduces [0] ⟨1, ![1]⟩) (hφ : FKind.Formats .f32) (hacc : acc = FKind.add.neutral .f32 hφ)
    (z : Fin 1) :
    multiReduction .add [0] ⟨1, ![1]⟩ v acc h hφ hacc (ix1 z) = ∑ r : Fin n, v (ix2 r z) :=
  (Ideal.multiReduction_add_single v acc h hφ hacc (ix1 z)).trans
    (Finset.sum_congr rfl fun r _ => congrArg v (lift_col h z r))

/-- Both reductions, each kept as an axis of extent one: the one entry of the `[1, 1]` result is the sum over the rows of
    the sums over each row's columns. -/
theorem sumAll_keepdims_apply {n d : Nat} (v : FVec Ideal ⟨2, ![n, d]⟩ .f32) (acc1 acc0 : BitVec 32)
    (h1 : (⟨2, ![n, d]⟩ : Shape).Reduces [1] ⟨1, ![n]⟩) (hφ1 : FKind.Formats .f32) (hacc1 : acc1 = FKind.add.neutral .f32 hφ1)
    (hc1 : (⟨1, ![n]⟩ : Shape).ShapeCasts ⟨2, ![n, 1]⟩)
    (h0 : (⟨2, ![n, 1]⟩ : Shape).Reduces [0] ⟨1, ![1]⟩) (hφ0 : FKind.Formats .f32) (hacc0 : acc0 = FKind.add.neutral .f32 hφ0)
    (hc0 : (⟨1, ![1]⟩ : Shape).ShapeCasts ⟨2, ![1, 1]⟩) (z w : Fin 1) :
    shapeCast ⟨2, ![1, 1]⟩
        (multiReduction .add [0] ⟨1, ![1]⟩
          (shapeCast ⟨2, ![n, 1]⟩ (multiReduction .add [1] ⟨1, ![n]⟩ v acc1 h1 hφ1 hacc1) hc1) acc0 h0 hφ0 hacc0)
        hc0 (ix2 z w)
      = ∑ r : Fin n, ∑ k : Fin d, v (ix2 r k) := by
  rw [shapeCast_apply _ hc0 (ix2 z w) (ix1 z) (by
    rw [Shape.rowMajor_val_one, Shape.rowMajor_val_two]
    show z.val = z.val * 1 + w.val
    have := w.isLt
    omega)]
  rw [colSum_apply]
  exact Finset.sum_congr rfl fun r _ => RowSum.rowSum_keepdims_apply v acc1 h1 hφ1 hacc1 hc1 r z

end Idealize.ShloMosaic.SumAll
-- ==== Proof.KernelBody.lean ====
/-
  What one grid point of the energy kernel leaves behind, as values.

  The kernel keeps a one-entry accumulator in a scratch buffer. At a point it loads the point's three strips (squared
  lengths `q`, rest lengths `l`, stiffnesses `s`, each 625 × 1280), forms the residual terms `s · (q - l²) · (q - l²)`,
  sums them over each row and then over the rows, and adds the total to the accumulator; at the first point the
  accumulator is first reset to zero, and at the last point it is also copied to the output block. So whatever the
  case, the accumulator ends a point at `update q l s a` of the contents `a` it had (zero at the first point), and at
  the last point the output block holds the same value. Read at its one entry over the extended reals, the update is
  `a + ∑ᵣ ∑ₖ s(r,k) · (q(r,k) - l(r,k)²) · (q(r,k) - l(r,k)²)`.
-/
import proofs.«426764_j10230612099764_2_alg».proof.Proof.Gen.KernelIdeal.Frame
import proofs.«426764_j10230612099764_2_alg».proof.Proof.EnergySpec
import proofs.«426764_j10230612099764_2_alg».proof.Proof.LibSumAll
import Idealize.ShloMosaic.Lib.Pipeline.Value
import Idealize.ShloMosaic.Lib.Tactic

set_option maxRecDepth 16384

open scoped BigOperators

noncomputable section

namespace Cert.KernelIdeal.Body

open Idealize.ShloMosaic Idealize.ShloMosaic.TcCoe Idealize.SL.Sem Idealize.ShloMosaic.Tactic
open Idealize.ShloMosaic.ValueIdx
open Cert.KernelIdeal Cert.KernelIdeal.Gen

variable {F : FTy → Type} [FloatOps F]

theorem hz : (![0, 0] : Fin 2 → Nat) = fun _ => 0 := funext fun a => by fin_cases a <;> rfl

/-! ## The accumulator and the output block after a point, case by case -/

/-- At the first point the accumulator is reset and then updated: it ends at the update of the zero block. -/
theorem scratch_first (c : Dev nD) (i : grid0.Coords) (arg1 : Memref sig .tc .vmem S625x1280 .f32) (harg1 : arg1.IsWhole) (arg2 : Memref sig .tc .vmem S625x1280 .f32) (harg2 : arg2.IsWhole) (arg3 : Memref sig .tc .vmem S625x1280 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 x1 x2 : Vec F S625x1280 .f32) :
    sout0_A_0 c i arg1 harg1 arg2 harg2 arg3 harg3 arg4 harg4 arg5 harg5 hc0 hc1 x0 x1 x2 = k0_pay2 x0 x1 x2 (k0_pay1 (F := F)) := by
  unfold sout0_A_0
  rw [View.read_writes_eq_canon _ _ _ (scover0_A_0 c i arg1 harg1 arg2 harg2 arg3 harg3 arg4 harg4 arg5 harg5 hc0 hc1 x0 x1 x2)]
  unfold kernelRun0_A
  dsimp only
  sl_unfold_words
  rw [View.canon_cons_unit_zero (S := S1x1) hz, View.readCov_unit_zero (S := S1x1) _ hz]
  simp only [View.readAt_eq_ld, harg1.read_unread, harg2.read_unread, harg3.read_unread, harg5.read_unread,
    View.ld_unit_zero (S := S625x1280) hz, View.ld_unit_zero (S := S1x1) hz, View.readCov_unit_zero (S := S1x1) _ hz]

/-- At a middle point the accumulator ends at the update of what the point before left. -/
theorem scratch_middle (c : Dev nD) (i : grid0.Coords) (arg1 : Memref sig .tc .vmem S625x1280 .f32) (harg1 : arg1.IsWhole) (arg2 : Memref sig .tc .vmem S625x1280 .f32) (harg2 : arg2.IsWhole) (arg3 : Memref sig .tc .vmem S625x1280 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 x1 x2 : Vec F S625x1280 .f32) (xs0 : Vec F S1x1 .f32) :
    sout0_B_0 c i arg1 harg1 arg2 harg2 arg3 harg3 arg4 harg4 arg5 harg5 hc0 hc1 x0 x1 x2 xs0 = k0_pay2 x0 x1 x2 xs0 := by
  unfold sout0_B_0
  rw [View.read_writes_eq_canon _ _ _ (scover0_B_0 c i arg1 harg1 arg2 harg2 arg3 harg3 arg4 harg4 arg5 harg5 hc0 hc1 x0 x1 x2 xs0)]
  unfold kernelRun0_B
  dsimp only
  sl_unfold_words
  rw [View.canon_unit_zero hz]
  simp only [View.readAt_eq_ld, harg1.read_unread, harg2.read_unread, harg3.read_unread, harg5.read_unread,
    View.ld_unit_zero (S := S625x1280) hz, View.ld_unit_zero (S := S1x1) hz, View.readCov_unit_zero (S := S1x1) _ hz]

/-- At the last point likewise; -/
theorem scratch_last (c : Dev nD) (i : grid0.Coords) (arg1 : Memref sig .tc .vmem S625x1280 .f32) (harg1 : arg1.IsWhole) (arg2 : Memref sig .tc .vmem S625x1280 .f32) (harg2 : arg2.IsWhole) (arg3 : Memref sig .tc .vmem S625x1280 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 x1 x2 : Vec F S625x1280 .f32) (xs0 : Vec F S1x1 .f32) :
    sout0_C_0 c i arg1 harg1 arg2 harg2 arg3 harg3 arg4 harg4 arg5 harg5 hc0 hc1 x0 x1 x2 xs0 = k0_pay2 x0 x1 x2 xs0 := by
  unfold sout0_C_0
  rw [View.read_writes_eq_canon _ _ _ (scover0_C_0 c i arg1 harg1 arg2 harg2 arg3 harg3 arg4 harg4 arg5 harg5 hc0 hc1 x0 x1 x2 xs0)]
  unfold kernelRun0_C
  dsimp only
  sl_unfold_words
  rw [View.canon_unit_zero hz]
  simp only [View.readAt_eq_ld, harg1.read_unread, harg2.read_unread, harg3.read_unread, harg5.read_unread,
    View.ld_unit_zero (S := S625x1280) hz, View.ld_unit_zero (S := S1x1) hz, View.readCov_unit_zero (S := S1x1) _ hz]

/-- and the output block, stored from the accumulator read back after its update, holds the same value. -/
theorem out_last (c : Dev nD) (i : grid0.Coords) (arg1 : Memref sig .tc .vmem S625x1280 .f32) (harg1 : arg1.IsWhole) (arg2 : Memref sig .tc .vmem S625x1280 .f32) (harg2 : arg2.IsWhole) (arg3 : Memref sig .tc .vmem S625x1280 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 x1 x2 : Vec F S625x1280 .f32) (xs0 : Vec F S1x1 .f32) :
    out0_C_3 c i arg1 harg1 arg2 harg2 arg3 harg3 arg4 harg4 arg5 harg5 hc0 hc1 x0 x1 x2 xs0 = k0_pay2 x0 x1 x2 xs0 := by
  unfold out0_C_3
  rw [View.read_writes_eq_canon _ _ _ (cover0_C_3 c i arg1 harg1 arg2 harg2 arg3 harg3 arg4 harg4 arg5 harg5 hc0 hc1 x0 x1 x2 xs0)]
  unfold kernelRun0_C
  dsimp only
  sl_unfold_words
  rw [View.canon_unit_zero hz]
  simp only [View.readAt_eq_ld, harg1.read_unread, harg2.read_unread, harg3.read_unread, harg5.read_unread,
    View.ld_unit_zero (S := S625x1280) hz, View.ld_unit_zero (S := S1x1) hz, View.readCov_unit_zero (S := S1x1) _ hz]

/-! ## The update at its one entry -/

/-- Over the extended reals the update adds to the accumulator's entry the sum over the strip of the residual terms. -/
theorem update_apply (q l s : Vec Ideal S625x1280 .f32) (a : Vec Ideal S1x1 .f32) (z w : Fin 1) :
    (k0_pay2 (F := Ideal) q l s a (ix2 z w) : EReal)
      = (a (ix2 z w) : EReal)
        + ∑ r : Fin 625, ∑ k : Fin 1280, SpringEnergy.residual (s (ix2 r k)) (q (ix2 r k)) (l (ix2 r k)) := by
  unfold k0_pay2
  simp only [shapeCast_self]
  refine congrArg ((a (ix2 z w) : EReal) + ·) ?_
  refine (SumAll.sumAll_keepdims_apply _ _ _ _ _ _ _ _ _ _ _ z w).trans ?_
  rfl

/-- The zero block the reset stores has the zero word's value at its entry. -/
theorem zero_apply (y : S1x1.Idx) : (k0_pay1 (F := Ideal) y : EReal) = Ideal.ofBits .f32 0x00000000#32 := by
  unfold k0_pay1
  simp only [shapeCast_self]
  rfl

end Cert.KernelIdeal.Body

end
-- ==== Proof.KernelRun.lean ====
/-
  The energy kernel's run, read as a value.

  Point `t` of the ten-point grid sees strip `t` of the three 625 × 12,800 arrays (columns `1280 t … 1280 t + 1279`).
  Write `strip t` for the sum over that strip of the residual terms. By induction on the point the accumulator holds,
  after point `n`, the running sum `((0 + strip 0) + strip 1) + … + strip n`; the last point copies it to the 1 × 1
  output block, whose one write-back fills the whole 1 × 1 result array; the two host operations after the region
  reshape that array to a scalar and halve it.
-/
import proofs.«426764_j10230612099764_2_alg».proof.Proof.KernelBody
import Idealize.ShloMosaic.Lib.StableHlo.Run

set_option maxRecDepth 16384

open scoped BigOperators

noncomputable section

namespace Cert.KernelIdeal.Run

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.Body

variable (m : (ℓ : Loc nD τ sig) → Buf (Elt Ideal) ℓ) (ρ : Dev nD → PrngReg)

/-- Strip `t` of the squared lengths, of the rest lengths, of the stiffnesses. -/
abbrev qblk (c : Dev nD) (t : Fin cfg0.N) : Vec Ideal S625x1280 .f32 := iblk m c 0 t
abbrev lblk (c : Dev nD) (t : Fin cfg0.N) : Vec Ideal S625x1280 .f32 := iblk m c 1 t
abbrev sblk (c : Dev nD) (t : Fin cfg0.N) : Vec Ideal S625x1280 .f32 := iblk m c 2 t

/-- The sum of strip `t`'s residual terms. -/
def strip (c : Dev nD) (t : Fin cfg0.N) : EReal :=
  ∑ r : Fin 625, ∑ k : Fin 1280,
    SpringEnergy.residual (sblk m c t (ix2 r k)) (qblk m c t (ix2 r k)) (lblk m c t (ix2 r k))

/-- The same by the point's number (zero past the grid, where nothing is summed). -/
def stripN (c : Dev nD) (n : ℕ) : EReal := if h : n < cfg0.N then strip m c ⟨n, h⟩ else 0

/-- The zero the accumulator starts from. -/
abbrev zero : EReal := Ideal.ofBits .f32 0x00000000#32

/-- THE ACCUMULATOR after point `n` holds the running sum of the strips up to `n`. -/
theorem acc_eq (c : Dev nD) : ∀ (n : ℕ) (hn : n < cfg0.N) (z w : Fin 1),
    ((outsAt0 m c n hn).2 (ix2 z w) : EReal) = SpringEnergy.runningSum zero (stripN m c) n
  | 0, hn, z, w => by
    rw [outsAt0_A m c ⟨0, hn⟩ rfl (by dsimp only; omega)]
    dsimp only
    refine (congrFun (scratch_first (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) _ _
      (qblk m c ⟨0, hn⟩) (lblk m c ⟨0, hn⟩) (sblk m c ⟨0, hn⟩)) (ix2 z w)).trans ?_
    refine (update_apply (qblk m c ⟨0, hn⟩) (lblk m c ⟨0, hn⟩) (sblk m c ⟨0, hn⟩) _ z w).trans ?_
    rw [zero_apply]
    show zero + strip m c ⟨0, hn⟩ = zero + stripN m c 0
    rw [stripN, dif_pos hn]
  | n + 1, hn, z, w => by
    have hN : cfg0.N = 10 := N_0
    have h0 : ¬(⟨n + 1, hn⟩ : Fin cfg0.N).val % 10 = 0 := by dsimp only; omega
    have hstep : SpringEnergy.runningSum zero (stripN m c) n + strip m c ⟨n + 1, hn⟩
        = SpringEnergy.runningSum zero (stripN m c) (n + 1) := by
      show _ = SpringEnergy.runningSum zero (stripN m c) n + stripN m c (n + 1)
      rw [stripN, dif_pos hn]
    by_cases h1 : (⟨n + 1, hn⟩ : Fin cfg0.N).val % 10 = 9
    · rw [outsAt0_C m c ⟨n + 1, hn⟩ h0 h1]
      dsimp only
      refine (congrFun (scratch_last (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) _ _
        (qblk m c ⟨n + 1, hn⟩) (lblk m c ⟨n + 1, hn⟩) (sblk m c ⟨n + 1, hn⟩)
        (outsAt0 m c n (Nat.lt_of_succ_lt hn)).2) (ix2 z w)).trans ?_
      refine (update_apply (qblk m c ⟨n + 1, hn⟩) (lblk m c ⟨n + 1, hn⟩) (sblk m c ⟨n + 1, hn⟩) _ z w).trans ?_
      rw [acc_eq c n (Nat.lt_of_succ_lt hn) z w]
      exact hstep
    · rw [outsAt0_B m c ⟨n + 1, hn⟩ h0 h1]
      dsimp only
      refine (congrFun (scratch_middle (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) _ _
        (qblk m c ⟨n + 1, hn⟩) (lblk m c ⟨n + 1, hn⟩) (sblk m c ⟨n + 1, hn⟩)
        (outsAt0 m c n (Nat.lt_of_succ_lt hn)).2) (ix2 z w)).trans ?_
      refine (update_apply (qblk m c ⟨n + 1, hn⟩) (lblk m c ⟨n + 1, hn⟩) (sblk m c ⟨n + 1, hn⟩) _ z w).trans ?_
      rw [acc_eq c n (Nat.lt_of_succ_lt hn) z w]
      exact hstep

/-- What the kernel accumulates in all: zero plus the ten strips, in point order. -/
def total (c : Dev nD) : EReal := SpringEnergy.runningSum zero (stripN m c) 9

/-- THE OUTPUT BLOCK after the last point holds that total. -/
theorem out_eq (c : Dev nD) (hn : 9 < cfg0.N) (z w : Fin 1) :
    ((outsAt0 m c 9 hn).1 (ix2 z w) : EReal) = total m c := by
  rw [outsAt0_C m c ⟨9, hn⟩ (by dsimp only; omega) rfl]
  dsimp only
  refine (congrFun (out_last (F := Ideal) c (grid0.coords ⟨9, hn⟩) (ms0_0 ⟨9, hn⟩) (hs0_0 ⟨9, hn⟩) (ms0_1 ⟨9, hn⟩) (hs0_1 ⟨9, hn⟩) (ms0_2 ⟨9, hn⟩) (hs0_2 ⟨9, hn⟩) (ms0_3 ⟨9, hn⟩) (hs0_3 ⟨9, hn⟩) scM0_0 (Memref.isWhole_whole _) _ _
    (qblk m c ⟨9, hn⟩) (lblk m c ⟨9, hn⟩) (sblk m c ⟨9, hn⟩)
    (outsAt0 m c 8 (Nat.lt_of_succ_lt hn)).2) (ix2 z w)).trans ?_
  refine (update_apply (qblk m c ⟨9, hn⟩) (lblk m c ⟨9, hn⟩) (sblk m c ⟨9, hn⟩) _ z w).trans ?_
  rw [acc_eq m c 8 (Nat.lt_of_succ_lt hn) z w]
  show _ = SpringEnergy.runningSum zero (stripN m c) 8 + stripN m c 9
  rw [stripN, dif_pos hn]
  rfl

/-- The same at any index of the block. -/
theorem out_at (c : Dev nD) (hn : 9 < cfg0.N) (y : S1x1.Idx) : ((outsAt0 m c 9 hn).1 y : EReal) = total m c := by
  obtain ⟨z, w, rfl⟩ : ∃ z w : Fin 1, y = ix2 z w := ⟨y 0, y 1, eq_ix2 y⟩
  exact out_eq m c hn z w

/-! ## The result array, the two operations after the region, the run -/

/-- The 1 × 1 result array at the total. -/
abbrev result (c : Dev nD) : Buf (Elt Ideal) ((c : Thread nD τ).loc main_v12) := fun _ => total m c

/-- The one write-back, at the last point, writes the total. -/
theorem flushed_eq (c : Dev nD) (t : Fin cfg0.N) (hf : (cfg0.win 3).flush t = true) :
    (dats m 0 c).flushed 3 t = ((cfg0.win 3).blk t).view.read (Elt Ideal) (result m c) := by
  have hN : cfg0.N = 10 := N_0
  have h9 : t.val = 9 := by have := (flush0_3 t).mp hf; have := t.isLt; omega
  obtain ⟨n, hn⟩ := t
  dsimp only at h9
  subst h9
  funext j
  show ((dats m 0 c).after 3 ⟨9, hn⟩ ((cfg0.win 3).xinj (cfg0.grid.coords ⟨9, hn⟩) j) : EReal) = total m c
  exact (congrFun (after0_3 m c ⟨9, hn⟩) _).trans (out_at m c hn _)

/-- The point that writes back: the last one. -/
theorem last_lt : 9 < cfg0.N := by rw [show cfg0.N = 10 from N_0]; decide

/-- The output's block index never moves: it is block (0, 0) at every point. -/
theorem out_idx : ∀ t : Fin cfg0.N, win0_3.index t (0 : Fin 2) = 0 ∧ win0_3.index t (1 : Fin 2) = 0 :=
  (by decide +kernel : ∀ t : Fin grid0.N, _)

/-- An index of the result array lies in point `t`'s output block iff each coordinate lies in the block's range. -/
theorem mem_out_block (t : Fin cfg0.N) (i : S1x1.Idx) :
    i ∈ ((cfg0.win 3).blk t).view.set ↔ ∀ a : Fin 2, win0_3.index t a * S1x1.size a ≤ (i a).val ∧ (i a).val < win0_3.index t a * S1x1.size a + S1x1.size a := by
  show i ∈ ((View.whole main_v12).slice (win0_3.rect t)).set ↔ _
  rw [View.set_slice_whole, Rect.mem_set_unit]
  exact Iff.rfl

/-- Its block is the whole 1 × 1 array, so the array ends at the total. -/
theorem final (c : Dev nD) : (dats m 0 c).arrAt 3 cfg0.N = result m c :=
  (dats m 0 c).arrAt_eq_of_cover 3 (result m c) (flushed_eq m c) fun i =>
    ⟨⟨9, last_lt⟩, (flush0_3 ⟨9, last_lt⟩).mpr rfl, by
      rw [mem_out_block]
      obtain ⟨e0, e1⟩ := out_idx ⟨9, last_lt⟩
      intro a
      have b0 : (i 0).val < 1 := (i 0).isLt
      have b1 : (i 1).val < 1 := (i 1).isLt
      match a with
      | ⟨0, _⟩ => show win0_3.index ⟨9, last_lt⟩ (0 : Fin 2) * 1 ≤ (i 0).val ∧ (i 0).val < win0_3.index ⟨9, last_lt⟩ (0 : Fin 2) * 1 + 1; omega
      | ⟨1, _⟩ => show win0_3.index ⟨9, last_lt⟩ (1 : Fin 2) * 1 ≤ (i 1).val ∧ (i 1).val < win0_3.index ⟨9, last_lt⟩ (1 : Fin 2) * 1 + 1; omega⟩

/-- The two host operations after the region: the array reshaped to a scalar, times one half. -/
theorem tail_eq (c : Dev nD) :
    Pipeline.afterTail₀ cfgs (dats m) 0 (V0 m) [hostOps1] c main_v14
      = fun _ => (Ideal.ofBits .f32 0x3F000000#32 * total m c : EReal) := by
  unfold Pipeline.afterTail₀
  show StableHlo.after hostOps1 _ (Proc.devRef .tc main_v14) = _
  after_results
  have e : Pipeline.withArrays (cfgs 0).spec c (V0 m c) (fun w => (dats m 0 c).arrAt w (cfgs 0).N) (Proc.devRef .tc main_v12)
      = result m c :=
    (Pipeline.withArrays_arr spec0 launch0.win.arr_inj c (V0 m c) (fun w => (dats m 0 c).arrAt w (cfgs 0).N) 3).trans (final m c)
  rw [e]
  rfl

/-- THE RUN, READ: the scalar result ends at half the total, the four arguments unchanged. -/
theorem run : θ_run defs (onTc (τ := τ) (main (F := Ideal))) ⟨m, fun _ => 0, ρ⟩ fun r => ∀ c : Dev nD,
      r.2.mem ((c : Thread nD τ).loc main_v14) = (fun _ => (Ideal.ofBits .f32 0x3F000000#32 * total m c : EReal))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v14 (Pipeline.mem_restRefs_of main_v14 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

/-! ## A strip's entries are entries of the arrays the region reads -/

/-- Each input's block index at point `t` is (0, t): strip `t`. -/
theorem in_idx : ∀ t : Fin cfg0.N, win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- Any contents \`A\` of the first array read through point \`t\`'s block: entry (r, k) of the block is entry (r, 1280 t + k) of \`A\`. -/
theorem read0 (A : S625x12800.Idx → EReal) (t : Fin cfg0.N) (r : Fin 625) (k : Fin 1280) (h : 1280 * t.val + k.val < 12800) :
    ((cfg0.win 0).blk t).view.read (Elt Ideal) A (ix2 r k) = A (ix2 r ⟨1280 * t.val + k.val, h⟩) := by
  obtain ⟨e0, e1, -⟩ := in_idx t
  rw [View.read_apply]
  refine congrArg A (funext fun a => Fin.ext ?_)
  match a with
  | ⟨0, _⟩ => show win0_0.index t (0 : Fin 2) * 625 + 1 * r.val = r.val; omega
  | ⟨1, _⟩ => show win0_0.index t (1 : Fin 2) * 1280 + 1 * k.val = 1280 * t.val + k.val; omega

/-- The same through the second window; -/
theorem read1 (A : S625x12800.Idx → EReal) (t : Fin cfg0.N) (r : Fin 625) (k : Fin 1280) (h : 1280 * t.val + k.val < 12800) :
    ((cfg0.win 1).blk t).view.read (Elt Ideal) A (ix2 r k) = A (ix2 r ⟨1280 * t.val + k.val, h⟩) := by
  obtain ⟨-, -, e0, e1, -⟩ := in_idx t
  rw [View.read_apply]
  refine congrArg A (funext fun a => Fin.ext ?_)
  match a with
  | ⟨0, _⟩ => show win0_1.index t (0 : Fin 2) * 625 + 1 * r.val = r.val; omega
  | ⟨1, _⟩ => show win0_1.index t (1 : Fin 2) * 1280 + 1 * k.val = 1280 * t.val + k.val; omega

/-- and through the third. -/
theorem read2 (A : S625x12800.Idx → EReal) (t : Fin cfg0.N) (r : Fin 625) (k : Fin 1280) (h : 1280 * t.val + k.val < 12800) :
    ((cfg0.win 2).blk t).view.read (Elt Ideal) A (ix2 r k) = A (ix2 r ⟨1280 * t.val + k.val, h⟩) := by
  obtain ⟨-, -, -, -, e0, e1⟩ := in_idx t
  rw [View.read_apply]
  refine congrArg A (funext fun a => Fin.ext ?_)
  match a with
  | ⟨0, _⟩ => show win0_2.index t (0 : Fin 2) * 625 + 1 * r.val = r.val; omega
  | ⟨1, _⟩ => show win0_2.index t (1 : Fin 2) * 1280 + 1 * k.val = 1280 * t.val + k.val; omega

/-- Entry (r, k) of strip `t` of the squared lengths is entry (r, 1280 t + k) of their array as the region finds it. -/
theorem qblk_apply (c : Dev nD) (t : Fin cfg0.N) (r : Fin 625) (k : Fin 1280) (h : 1280 * t.val + k.val < 12800) :
    (qblk m c t (ix2 r k) : EReal) = (V m c main_v9 : S625x12800.Idx → EReal) (ix2 r ⟨1280 * t.val + k.val, h⟩) := by
  unfold qblk iblk
  exact read0 (V m c main_v9) t r k h

/-- The same for the rest lengths; -/
theorem lblk_apply (c : Dev nD) (t : Fin cfg0.N) (r : Fin 625) (k : Fin 1280) (h : 1280 * t.val + k.val < 12800) :
    (lblk m c t (ix2 r k) : EReal) = (V m c main_v10 : S625x12800.Idx → EReal) (ix2 r ⟨1280 * t.val + k.val, h⟩) := by
  unfold lblk iblk
  exact read1 (V m c main_v10) t r k h

/-- and for the stiffnesses. -/
theorem sblk_apply (c : Dev nD) (t : Fin cfg0.N) (r : Fin 625) (k : Fin 1280) (h : 1280 * t.val + k.val < 12800) :
    (sblk m c t (ix2 r k) : EReal) = (V m c main_v11 : S625x12800.Idx → EReal) (ix2 r ⟨1280 * t.val + k.val, h⟩) := by
  unfold sblk iblk
  exact read2 (V m c main_v11) t r k h

end Cert.KernelIdeal.Run

end
-- ==== Proof.KernelEnergy.lean ====
/-
  The kernel's total is the energy.

  The three arrays the region reads hold, at (r, c), the squared length, the rest length and the stiffness of edge
  `12800 r + c`. Strip `t` of such an array at (r, k) is its entry (r, 1280 t + k): edge `cell t r k`. So strip `t`'s
  sum is the sum of the energy's edge terms over the strip's edges, the ten strips together are every edge once, and
  the accumulated total `0 + strip 0 + … + strip 9` is `0 + ∑ₑ term e`; halved, it is the energy.
-/
import proofs.«426764_j10230612099764_2_alg».proof.Proof.KernelRun

open scoped BigOperators

noncomputable section

namespace Cert.KernelIdeal.Energy

open Idealize.ShloMosaic Idealize.ShloMosaic.TcCoe Idealize.SL.Sem
open Idealize.ShloMosaic.ValueIdx
open Cert.KernelIdeal Cert.KernelIdeal.Gen Cert.KernelIdeal.Run

variable (m : (ℓ : Loc nD τ sig) → Buf (Elt Ideal) ℓ)

section
variable (c : Dev nD) (x : FVec Ideal SpringEnergy.SV .f32) (l0 k : FVec Ideal SpringEnergy.SE .f32) (idx : IVec SpringEnergy.SI 32)
  (hq : (V m c main_v9 : S625x12800.Idx → EReal) = fun y => SpringEnergy.sqLen x idx (SpringEnergy.flat (y 0) (y 1)))
  (hl : (V m c main_v10 : S625x12800.Idx → EReal) = fun y => l0 (ix1 (SpringEnergy.flat (y 0) (y 1))))
  (hs : (V m c main_v11 : S625x12800.Idx → EReal) = fun y => k (ix1 (SpringEnergy.flat (y 0) (y 1))))

include hq hl hs

/-- Strip `t`'s sum is the sum of the edge terms over the strip's edges. -/
theorem strip_eq (t : Fin 10) (ht : t.val < cfg0.N) :
    strip m c ⟨t.val, ht⟩ = ∑ r : Fin 625, ∑ j : Fin 1280, SpringEnergy.edgeTerm x l0 k idx (SpringEnergy.cell t r j) := by
  unfold strip
  refine Finset.sum_congr rfl fun r _ => Finset.sum_congr rfl fun j _ => ?_
  have hlt : 1280 * t.val + j.val < 12800 := by have := t.isLt; have := j.isLt; omega
  have eq := (qblk_apply m c ⟨t.val, ht⟩ r j hlt).trans (congrFun hq _)
  have el := (lblk_apply m c ⟨t.val, ht⟩ r j hlt).trans (congrFun hl _)
  have es := (sblk_apply m c ⟨t.val, ht⟩ r j hlt).trans (congrFun hs _)
  rw [eq, el, es]
  rfl

/-- The accumulated total is zero plus the sum of every edge's term. -/
theorem total_eq : total m c = zero + ∑ e : Fin 8000000, SpringEnergy.edgeTerm x l0 k idx e := by
  have hN : cfg0.N = 10 := N_0
  unfold total
  rw [SpringEnergy.runningSum_nine, ← SpringEnergy.sum_strips]
  refine congrArg (zero + ·) (Finset.sum_congr rfl fun t _ => ?_)
  have ht : t.val < cfg0.N := by rw [hN]; exact t.isLt
  rw [stripN, dif_pos ht]
  exact strip_eq m c x l0 k idx hq hl hs t ht

/-- Half the total is the energy. -/
theorem half_total_eq : (Ideal.ofBits .f32 0x3F000000#32 * total m c : EReal) = SpringEnergy.energy x l0 k idx := by
  rw [total_eq m c x l0 k idx hq hl hs]
  rfl

end

end Cert.KernelIdeal.Energy

end
-- ==== Proof.LibIndexRange.lean ====
/-
  Two general facts a proof meets when an integer input indexes an array.

  Words: a 32-bit word `w` with `0 ≤ w` and `w < n` as signed comparisons (`n` below 2³¹) has a signed value in
  `[0, n)`; for such a word the signed test `w < 0` fails, `w ≤ n - 1` holds, and the value read signed and clamped
  into `[0, n - 1]` is the value itself.

  Conjunctions: a `reduce` by `and` of one-bit words, started at 1, over an operand that is 1 everywhere is 1 at every
  result index (the converse of "a conjunction that is 1 met only 1s").
-/
import Idealize.ShloMosaic.Lib.ReduceAll
import Idealize.ShloMosaic.Lib.StableHlo.Predicate

namespace Idealize.ShloMosaic.IndexRange

open Idealize.ShloMosaic Idealize.ShloMosaic.StableHlo.Predicate

/-! ## Words in a range -/

/-- The signed value of a word that passes `0 ≤ w` and `w < n`. -/
theorem toInt_mem_of_cmpi {w : BitVec 32} (n : Nat) (hn : n < 2 ^ 31)
    (h0 : IntOp.cmpi .sge w 0#32 = 1#1) (h1 : IntOp.cmpi .slt w (BitVec.ofNat 32 n) = 1#1) :
    0 ≤ w.toInt ∧ w.toInt < n := by
  unfold IntOp.cmpi at h0 h1
  rw [ofBool_eq_one_iff] at h0 h1
  simp only [BitVec.sle, BitVec.slt, decide_eq_true_eq] at h0 h1
  rw [toInt_ofNat_small n hn] at h1
  exact ⟨by simpa using h0, h1⟩

/-- A word with a non-negative signed value fails the signed test `w < 0`. -/
theorem slt_zero_eq_zero {w : BitVec 32} (h : 0 ≤ w.toInt) : IntOp.cmpi .slt w 0#32 = 0#1 := by
  unfold IntOp.cmpi
  have : w.slt 0#32 = false := by
    simp only [BitVec.slt, decide_eq_false_iff_not, not_lt]
    simpa using h
  rw [this]; rfl

/-- A word with a non-negative signed value passes the signed test `0 ≤ w`. -/
theorem sge_zero_eq_one {w : BitVec 32} (h : 0 ≤ w.toInt) : IntOp.cmpi .sge w 0#32 = 1#1 := by
  unfold IntOp.cmpi
  rw [ofBool_eq_one_iff]
  simp only [BitVec.sle, decide_eq_true_eq]
  simpa using h

/-- For such a word the select "`w + n` if `w < 0`, else `w`" (an index counted from the end made absolute) is `w`. -/
theorem select_wrap_eq {w : BitVec 32} (n : BitVec 32) (h : 0 ≤ w.toInt) :
    Scalar.select (IntOp.cmpi .slt w 0#32) (IntOp.addi w n) w = w := by
  rw [slt_zero_eq_zero h]
  exact if_neg (by decide)

/-- A word whose signed value is at most `k` passes the signed test `w ≤ k`. -/
theorem sle_eq_one {w : BitVec 32} (k : Nat) (hk : k < 2 ^ 31) (h : w.toInt ≤ k) :
    IntOp.cmpi .sle w (BitVec.ofNat 32 k) = 1#1 := by
  unfold IntOp.cmpi
  rw [ofBool_eq_one_iff]
  simp only [BitVec.sle, decide_eq_true_eq]
  rw [toInt_ofNat_small k hk]
  exact h

/-- Read signed and clamped into `[0, k]`, a word whose signed value lies there is its own value. -/
theorem clamp_toNat {w : BitVec 32} (k : Nat) (h0 : 0 ≤ w.toInt) (h1 : w.toInt ≤ k) :
    min w.toInt.toNat k = w.toInt.toNat := by
  omega

/-! ## A conjunction of ones -/

/-- A left fold by `and` from 1 over one-bit words that are all 1 is 1. -/
theorem foldl_andi_of_forall {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..), show IntOp.andi 1#1 1#1 = 1#1 from by decide]
    exact foldl_andi_of_forall f l fun n hn => h n (List.mem_cons_of_mem _ hn)

/-- A `reduce` by `and` from an initial 1 over an operand that is 1 everywhere is 1 at every result index. -/
theorem reduce_andi_of_forall {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_of_forall x _ fun n _ => hx n

end Idealize.ShloMosaic.IndexRange
-- ==== Proof.LibTakeRows.lean ====
/-
  Two shapes of `stablehlo.gather` that jnp's indexing by an integer vector lowers to, each read at one result index.

  * ROWS OF A TABLE (`jnp.take(table, idx, axis=0)` of a table `[N, D]` at `n` positions, the start indices an
    `[n, 1]` column): result element `(i, k)` is the table's element `(r, k)`, where `r` is the start index of position
    `i` read signed and clamped into `[0, N - 1]`.
  * ONE ELEMENT PER ROW (`jnp.take_along_axis(a, idx[:, None], axis=1)` of `a : [n, M]`, row `i` being a batch of its
    own, the start indices `[n, 1, 1]`): result element `(i, q)` is `a`'s element `(i, r)`, where `r` is the start
    index at `(i, q, 0)` read signed and clamped into `[0, M - 1]`.

  The dimension numbers are spelt field by field as a printed program's record is, so that record is one of these by `rfl`.
-/
import Idealize.ShloMosaic.Lib.ValueIdx

namespace Idealize.ShloMosaic.TakeRows

open Idealize.ShloMosaic Idealize.ShloMosaic.ValueIdx

variable {α : Type}

/-! ## Rows of a table -/

/-- The dimension numbers of a row take: operand `[N, D]`, start indices `[n, 1]`, result `[n, D]`. -/
abbrev rowDims (N D n : Nat)
    (wf : GatherDims.WF ⟨2, ![N, D]⟩ ⟨2, ![n, 1]⟩ ⟨2, ![n, D]⟩ [1] [0] [] [0] [] 1 ![1, D]) :
    GatherDims ⟨2, ![N, D]⟩ ⟨2, ![n, 1]⟩ ⟨2, ![n, D]⟩ where
  offsetDims := [1]
  collapsedSliceDims := [0]
  operandBatchingDims := []
  startIndicesBatchingDims := []
  startIndexMap := [0]
  indexVectorDim := 1
  sliceSizes := ![1, D]
  wf := wf

/-- A row take read at `(i, k)`: column `k` of the row the clamped start index of position `i` names. -/
theorem rowTake_apply {N D n w : Nat} (hN : 0 < N)
    (wf : GatherDims.WF ⟨2, ![N, D]⟩ ⟨2, ![n, 1]⟩ ⟨2, ![n, D]⟩ [1] [0] [] [0] [] 1 ![1, D])
    (x : (⟨2, ![N, D]⟩ : Shape).Idx → α) (idx : IVec ⟨2, ![n, 1]⟩ w) (i : Fin n) (k : Fin D) :
    Host.gather (rowDims N D n wf) x idx (ix2 i k)
      = x (ix2 ⟨min (idx (ix2 i (0 : Fin 1))).toInt.toNat (N - 1), by omega⟩ k) := by
  unfold Host.gather
  congr 1
  funext a
  refine Fin.ext ?_
  match a with
  | ⟨0, _⟩ =>
    show (rowDims N D n wf).start (ix2 i k) idx 0 + (rowDims N D n wf).batchCoord (ix2 i k) 0
      + (rowDims N D n wf).offCoord (ix2 i k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N D n wf).startIndexMap from List.mem_singleton.mpr rfl)]
    have hsi : (rowDims N D n wf).siIdx (ix2 i k) ⟨List.idxOf (0 : Fin 2) (rowDims N D n wf).startIndexMap,
        List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl
  | ⟨1, _⟩ =>
    show (rowDims N D n wf).start (ix2 i k) idx 1 + (rowDims N D n wf).batchCoord (ix2 i k) 1
      + (rowDims N D n wf).offCoord (ix2 i k) 1 = k.val
    rw [GatherDims.batchCoord_eq_zero _ _ _ List.not_mem_nil]
    unfold GatherDims.start
    rw [dif_neg (show ¬(1 : Fin 2) ∈ (rowDims N D n wf).startIndexMap from (by decide : (1 : Fin 2) ∉ ([0] : List (Fin 2))))]
    simp only [Nat.add_zero, Nat.zero_add]
    rfl

/-! ## One element per row -/

/-- The dimension numbers of `take_along_axis` along axis 1 with one index per row: operand `[n, M]`, start
    indices `[n, Q, 1]`, result `[n, Q]`; axis 0 is a batching axis of both. -/
abbrev alongDims (n M Q : Nat)
    (wf : GatherDims.WF ⟨2, ![n, M]⟩ ⟨3, ![n, Q, 1]⟩ ⟨2, ![n, Q]⟩ [] [1] [0] [1] [0] 2 ![1, 1]) :
    GatherDims ⟨2, ![n, M]⟩ ⟨3, ![n, Q, 1]⟩ ⟨2, ![n, Q]⟩ where
  offsetDims := []
  collapsedSliceDims := [1]
  operandBatchingDims := [0]
  startIndicesBatchingDims := [0]
  startIndexMap := [1]
  indexVectorDim := 2
  sliceSizes := ![1, 1]
  wf := wf

/-- That gather read at `(i, q)`: row `i` of the operand at the clamped start index at `(i, q, 0)`. -/
theorem alongTake_apply {n M Q w : Nat} (hM : 0 < M)
    (wf : GatherDims.WF ⟨2, ![n, M]⟩ ⟨3, ![n, Q, 1]⟩ ⟨2, ![n, Q]⟩ [] [1] [0] [1] [0] 2 ![1, 1])
    (x : (⟨2, ![n, M]⟩ : Shape).Idx → α) (idx : IVec ⟨3, ![n, Q, 1]⟩ w) (i : Fin n) (q : Fin Q) :
    Host.gather (alongDims n M Q wf) x idx (ix2 i q)
      = x (ix2 i ⟨min (idx (ix3 i q (0 : Fin 1))).toInt.toNat (M - 1), by omega⟩) := by
  unfold Host.gather
  congr 1
  funext a
  refine Fin.ext ?_
  match a with
  | ⟨0, _⟩ =>
    show (alongDims n M Q wf).start (ix2 i q) idx 0 + (alongDims n M Q wf).batchCoord (ix2 i q) 0
      + (alongDims n M Q wf).offCoord (ix2 i q) 0 = i.val
    rw [GatherDims.start_batching _ _ _ _ (List.mem_singleton.mpr rfl),
      GatherDims.offCoord_eq_zero _ _ _ (fun h => ((GatherDims.mem_sKept _ _).mp h).2 (List.mem_singleton.mpr rfl))]
    simp only [Nat.add_zero, Nat.zero_add]
    rfl
  | ⟨1, _⟩ =>
    show (alongDims n M Q wf).start (ix2 i q) idx 1 + (alongDims n M Q wf).batchCoord (ix2 i q) 1
      + (alongDims n M Q wf).offCoord (ix2 i q) 1 = _
    rw [GatherDims.batchCoord_eq_zero _ _ _ (show ¬(1 : Fin 2) ∈ (alongDims n M Q wf).operandBatchingDims from (by decide : (1 : Fin 2) ∉ ([0] : List (Fin 2)))),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims n M Q wf).startIndexMap from List.mem_singleton.mpr rfl)]
    have hsi : (alongDims n M Q wf).siIdx (ix2 i q) ⟨List.idxOf (1 : Fin 2) (alongDims n M Q wf).startIndexMap,
        List.idxOf_lt_length_iff.2 (List.mem_singleton.mpr rfl)⟩ = ix3 i q (0 : Fin 1) := by
      funext b; refine Fin.ext ?_
      match b with
      | ⟨0, _⟩ => rfl
      | ⟨1, _⟩ => rfl
      | ⟨2, _⟩ => rfl
    rw [hsi]
    rfl

end Idealize.ShloMosaic.TakeRows
-- ==== Proof.KernelInputs.lean ====
/-
  What the three arrays the region reads hold when it is entered, as functions of the argument arrays.

  The host lines before the region cut the index pairs into their two columns, take the rows of the vertex table the
  words of each column name, subtract the two takes, square, sum the three coordinates of each edge from zero, and lay
  the 8,000,000 sums out as 625 rows of 12,800; the rest lengths and the stiffnesses are laid out the same way.

  A take of rows first makes an index absolute (`w + 1000000` where `w < 0`), gathers the rows at the absolute
  indices clamped into the table, and replaces by NaN the rows whose absolute index lies outside `[0, 999999]`. For a
  word whose signed value lies in `[0, 1000000)` the absolute index is the word, the test passes, and the row taken is
  the row the word names: the squared length the specification states.
-/
import proofs.«426764_j10230612099764_2_alg».proof.Proof.Gen.KernelIdeal.Frame
import proofs.«426764_j10230612099764_2_alg».proof.Proof.EnergySpec
import proofs.«426764_j10230612099764_2_alg».proof.Proof.LibIndexRange
import proofs.«426764_j10230612099764_2_alg».proof.Proof.LibTakeRows
import Idealize.ShloMosaic.Lib.StableHlo.Run
import Idealize.ShloMosaic.Lib.Pipeline.Value
import Idealize.ShloMosaic.Lib.ValueIdx
import Idealize.ShloMosaic.PureOps.Ideal.Laws

open scoped BigOperators

noncomputable section

namespace Cert.KernelIdeal.Inputs

open Cert.KernelIdeal Cert.KernelIdeal.Gen Idealize.ShloMosaic Idealize.ShloMosaic.TcCoe Idealize.SL.Sem

variable (m : (ℓ : Loc nD τ sig) → Buf (Elt Ideal) ℓ)

/-! ## A reshape of the 8,000,000 edges to 625 rows of 12,800 -/

/-- The reshape read at row `r`, column `cc`: the vector's element at `12800 r + cc`. -/
theorem reshape_apply {α : Type} (v : S8000000.Idx → α) (r : Fin 625) (cc : Fin 12800) :
    shapeCast S625x12800 v shapeCasts_S8000000_S625x12800 (ValueIdx.ix2 r cc) = v (ValueIdx.ix1 (SpringEnergy.flat r cc)) := by
  refine shapeCast_apply v shapeCasts_S8000000_S625x12800 (ValueIdx.ix2 r cc) (ValueIdx.ix1 (SpringEnergy.flat r cc)) ?_
  rw [Shape.rowMajor_val_two, Shape.rowMajor_val_one]
  show 12800 * r.val + cc.val = r.val * 12800 + cc.val
  omega

/-- The same at an index of the 625 × 12,800 shape. -/
theorem reshape_apply_idx {α : Type} (v : S8000000.Idx → α) (y : S625x12800.Idx) :
    shapeCast S625x12800 v shapeCasts_S8000000_S625x12800 y = v (ValueIdx.ix1 (SpringEnergy.flat (y 0) (y 1))) := by
  conv_lhs => rw [ValueIdx.eq_ix2 y]
  exact reshape_apply v (y 0) (y 1)

/-! ## The rest lengths and the stiffnesses: reshapes of the arguments -/

/-- The rest-length array the region reads is the argument reshaped. -/
theorem rest_array (c : Dev nD) :
    (V m c main_v10 : S625x12800.Idx → EReal)
      = fun y => m ((c : Thread nD τ).loc main_arg1) (ValueIdx.ix1 (SpringEnergy.flat (y 0) (y 1))) := by
  have e : (V m c main_v10 : S625x12800.Idx → EReal)
      = shapeCast S625x12800 (m ((c : Thread nD τ).loc main_arg1) : S8000000.Idx → EReal) shapeCasts_S8000000_S625x12800 := by
    dsimp only [Gen.V, Gen.V0]
    simp only [Gen.hostOps0, Gen.hostOps0_1, Gen.hostOps0_2, Gen.hostOps0_3, List.flatten_cons, List.flatten_nil, List.append_nil,
      List.cons_append, List.nil_append]
    after_results
    rfl
  rw [e]
  funext y
  exact reshape_apply_idx _ y

/-- The stiffness array the region reads is the argument reshaped. -/
theorem stiff_array (c : Dev nD) :
    (V m c main_v11 : S625x12800.Idx → EReal)
      = fun y => m ((c : Thread nD τ).loc main_arg2) (ValueIdx.ix1 (SpringEnergy.flat (y 0) (y 1))) := by
  have e : (V m c main_v11 : S625x12800.Idx → EReal)
      = shapeCast S625x12800 (m ((c : Thread nD τ).loc main_arg2) : S8000000.Idx → EReal) shapeCasts_S8000000_S625x12800 := by
    dsimp only [Gen.V, Gen.V0]
    simp only [Gen.hostOps0, Gen.hostOps0_1, Gen.hostOps0_2, Gen.hostOps0_3, List.flatten_cons, List.flatten_nil, List.append_nil,
      List.cons_append, List.nil_append]
    after_results
    rfl
  rw [e]
  funext y
  exact reshape_apply_idx _ y

/-! ## The stages of the host lines, as functions of the vertex table and the index pairs -/

/-- Column 0 of the index pairs as a vector: the slice at column 0, reshaped. -/
def col0 (x3 : IVec S8000000x2 32) : IVec S8000000 32 :=
  shapeCast S8000000 (extractStridedSlice S8000000x1 ![0, 0] x3 slices_S8000000x2_S8000000x1_0_0) shapeCasts_S8000000x1_S8000000

/-- Column 1 of the index pairs as a vector. -/
def col1 (x3 : IVec S8000000x2 32) : IVec S8000000 32 :=
  shapeCast S8000000 (extractStridedSlice S8000000x1 ![0, 1] x3 slices_S8000000x2_S8000000x1_0_1) shapeCasts_S8000000x1_S8000000

/-- The index words made absolute: `w + 1000000` where `w < 0`, else `w`. -/
def wrapped (w : IVec S8000000 32) : IVec S8000000 32 :=
  select (cmpi .slt w (broadcastInDim S8000000 ![] bcast_S_S8000000 (constantI S_ 32 0#32)))
    (addi w (broadcastInDim S8000000 ![] bcast_S_S8000000 (constantI S_ 32 1000000#32))) w

/-- The gather's start indices: the absolute indices as a column. -/
def start (w : IVec S8000000 32) : IVec S8000000x1 32 :=
  broadcastInDim S8000000x1 ![0] bcast_S8000000_S8000000x1_0 (wrapped w)

/-- The test `0 ≤ s` and `s ≤ 999999` of each start index. -/
def inbCol (w : IVec S8000000 32) : IVec S8000000x1 1 :=
  andi (cmpi .sge (start w) (broadcastInDim S8000000x1 ![] bcast_S_S8000000x1 (constantI S_ 32 0#32)))
    (cmpi .sle (start w) (broadcastInDim S8000000x1 ![0, 1] bcast_S1x1_S8000000x1_0_1
      (broadcastInDim S1x1 ![1] bcast_S1_S1x1_1 (constantI S1 32 999999#32))))

/-- The in-bounds mask of a position: the conjunction of its tests along the column's one axis. -/
def inb (w : IVec S8000000 32) : IVec S8000000 1 :=
  Host.reduce IntOp.andi (inbCol w) (constantI S_ 1 1#1) reducesTo_S8000000x1_S8000000_d1 h_S_

/-- The rows of the table taken at the index words `w`: gathered at the absolute indices, NaN where out of bounds. -/
def taken (x0 : FVec Ideal S1000000x3 .f32) (w : IVec S8000000 32) : FVec Ideal S8000000x3 .f32 :=
  select (broadcastInDim S8000000x3 ![0] bcast_S8000000_S8000000x3_0 (inb w))
    (Host.gather gather_S1000000x3_S8000000x1_S8000000x3_1_0_n_n_0_1_13 x0 (start w))
    (broadcastInDim S8000000x3 ![] bcast_S_S8000000x3 (constant (F := Ideal) S_ .f32 0x7FC00000#32))

/-- The coordinate differences of each edge's two end points. -/
def diffs (x0 : FVec Ideal S1000000x3 .f32) (x3 : IVec S8000000x2 32) : FVec Ideal S8000000x3 .f32 :=
  subf (taken x0 (col0 x3)) (taken x0 (col1 x3))

/-- The squared length of each edge: its three squared differences summed from zero. -/
def sqLens (x0 : FVec Ideal S1000000x3 .f32) (x3 : IVec S8000000x2 32) : FVec Ideal S8000000 .f32 :=
  Host.reduceAdd (mulf (diffs x0 x3) (diffs x0 x3)) (constant (F := Ideal) S_ .f32 0x00000000#32)
    reducesTo_S8000000x3_S8000000_d1 h_S_

/-! ## The stages read at an element -/

/-- Column 0's word of edge `e`. -/
theorem col0_apply (x3 : IVec S8000000x2 32) (e : Fin 8000000) : col0 x3 (ValueIdx.ix1 e) = x3 (ValueIdx.ix2 e (0 : Fin 2)) := by
  unfold col0
  rw [shapeCast_apply _ shapeCasts_S8000000x1_S8000000 (ValueIdx.ix1 e) (ValueIdx.ix2 e (0 : Fin 1))
    (by rw [Shape.rowMajor_val_two, Shape.rowMajor_val_one]; show e.val * 1 + 0 = e.val; omega)]
  exact extractStridedSlice_apply ![0, 0] x3 slices_S8000000x2_S8000000x1_0_0 _ (ValueIdx.ix2 e (0 : Fin 2)) (fun a => match a with
    | ⟨0, _⟩ => by show e.val = 0 + e.val; omega
    | ⟨1, _⟩ => by show 0 = 0 + 0; omega)

/-- Column 1's word of edge `e`. -/
theorem col1_apply (x3 : IVec S8000000x2 32) (e : Fin 8000000) : col1 x3 (ValueIdx.ix1 e) = x3 (ValueIdx.ix2 e (1 : Fin 2)) := by
  unfold col1
  rw [shapeCast_apply _ shapeCasts_S8000000x1_S8000000 (ValueIdx.ix1 e) (ValueIdx.ix2 e (0 : Fin 1))
    (by rw [Shape.rowMajor_val_two, Shape.rowMajor_val_one]; show e.val * 1 + 0 = e.val; omega)]
  exact extractStridedSlice_apply ![0, 1] x3 slices_S8000000x2_S8000000x1_0_1 _ (ValueIdx.ix2 e (1 : Fin 2)) (fun a => match a with
    | ⟨0, _⟩ => by show e.val = 0 + e.val; omega
    | ⟨1, _⟩ => by show 1 = 1 + 0; omega)

/-- A word with a non-negative signed value is its own absolute index. -/
theorem wrapped_apply (w : IVec S8000000 32) (i : S8000000.Idx) (h : 0 ≤ (w i).toInt) : wrapped w i = w i := by
  show Scalar.select (IntOp.cmpi .slt (w i) 0#32) (IntOp.addi (w i) 1000000#32) (w i) = w i
  exact IndexRange.select_wrap_eq _ h

/-- The start index of position `i 0` is its absolute index. -/
theorem start_apply (w : IVec S8000000 32) (i : S8000000x1.Idx) : start w i = wrapped w (ValueIdx.ix1 (i 0)) := by
  unfold start
  exact broadcastInDim_apply _ bcast_S8000000_S8000000x1_0 _ i (ValueIdx.ix1 (i 0)) (fun a => match a with
    | ⟨0, _⟩ => by show (i 0).val = if (8000000 : Nat) = 1 then 0 else (i 0).val; rw [if_neg (by decide)])

/-- Words in range pass the bounds test everywhere. -/
theorem inb_apply (w : IVec S8000000 32) (h : ∀ i, 0 ≤ (w i).toInt ∧ (w i).toInt < 1000000) (j : S8000000.Idx) :
    inb w j = 1#1 := by
  unfold inb
  refine IndexRange.reduce_andi_of_forall _ _ reducesTo_S8000000x1_S8000000_d1 h_S_ rfl (fun i => ?_) j
  show IntOp.andi (IntOp.cmpi .sge (start w i) 0#32) (IntOp.cmpi .sle (start w i) 999999#32) = 1#1
  rw [start_apply, wrapped_apply w _ (h _).1, IndexRange.sge_zero_eq_one (h _).1,
    IndexRange.sle_eq_one 999999 (by decide) (by have := (h (ValueIdx.ix1 (i 0))).2; omega)]
  decide

/-- The row taken at a word in range, read at coordinate `j`: the table's row the word names (the word read signed
    and clamped into the table is the word). -/
theorem taken_apply (x0 : FVec Ideal S1000000x3 .f32) (w : IVec S8000000 32)
    (h : ∀ i, 0 ≤ (w i).toInt ∧ (w i).toInt < 1000000) (e : Fin 8000000) (j : Fin 3)
    (v : Fin 1000000) (hv : v.val = min (w (ValueIdx.ix1 e)).toInt.toNat (1000000 - 1)) :
    taken x0 w (ValueIdx.ix2 e j) = x0 (ValueIdx.ix2 v j) := by
  unfold taken
  rw [ValueIdx.select_apply]
  have hm : broadcastInDim S8000000x3 ![0] bcast_S8000000_S8000000x3_0 (inb w) (ValueIdx.ix2 e j) = 1#1 := by
    rw [broadcastInDim_apply _ bcast_S8000000_S8000000x3_0 _ (ValueIdx.ix2 e j) (ValueIdx.ix1 e) (fun a => match a with
      | ⟨0, _⟩ => by show e.val = if (8000000 : Nat) = 1 then 0 else e.val; rw [if_neg (by decide)])]
    exact inb_apply w h _
  rw [hm, ValueIdx.select_one]
  have hs : start w (ValueIdx.ix2 e (0 : Fin 1)) = w (ValueIdx.ix1 e) := by
    rw [start_apply]; exact wrapped_apply w _ (h _).1
  have hg := TakeRows.rowTake_apply (N := 1000000) (D := 3) (n := 8000000) (by decide)
    gather_S1000000x3_S8000000x1_S8000000x3_1_0_n_n_0_1_13_wf x0 (start w) e j
  refine hg.trans (congrArg x0 (congrArg (fun v : Fin 1000000 => ValueIdx.ix2 v j) (Fin.ext ?_)))
  show min (start w (ValueIdx.ix2 e (0 : Fin 1))).toInt.toNat (1000000 - 1) = v.val
  rw [hs, hv]

/-- Under the range precondition each column's words lie in `[0, 1000000)`. -/
theorem col0_range (x3 : IVec S8000000x2 32) (h : SpringEnergy.InRange x3) (i : S8000000.Idx) :
    0 ≤ (col0 x3 i).toInt ∧ (col0 x3 i).toInt < 1000000 := by
  have e : col0 x3 i = x3 (ValueIdx.ix2 (i 0) (0 : Fin 2)) :=
    (congrArg (col0 x3) (ValueIdx.eq_ix1 i)).trans (col0_apply x3 (i 0))
  rw [e]; exact h _

theorem col1_range (x3 : IVec S8000000x2 32) (h : SpringEnergy.InRange x3) (i : S8000000.Idx) :
    0 ≤ (col1 x3 i).toInt ∧ (col1 x3 i).toInt < 1000000 := by
  have e : col1 x3 i = x3 (ValueIdx.ix2 (i 0) (1 : Fin 2)) :=
    (congrArg (col1 x3) (ValueIdx.eq_ix1 i)).trans (col1_apply x3 (i 0))
  rw [e]; exact h _

/-- Coordinate `j` of edge `e`'s difference is the specification's. -/
theorem diffs_apply (x0 : FVec Ideal S1000000x3 .f32) (x3 : IVec S8000000x2 32) (h : SpringEnergy.InRange x3)
    (e : Fin 8000000) (j : Fin 3) : diffs x0 x3 (ValueIdx.ix2 e j) = SpringEnergy.diff x0 x3 e j := by
  unfold diffs SpringEnergy.diff
  rw [ValueIdx.subf_apply,
    taken_apply x0 _ (col0_range x3 h) e j (SpringEnergy.vertex x3 e 0) (by
      show min (x3 (ValueIdx.ix2 e (0 : Fin 2))).toInt.toNat (1000000 - 1) = _
      rw [col0_apply]),
    taken_apply x0 _ (col1_range x3 h) e j (SpringEnergy.vertex x3 e 1) (by
      show min (x3 (ValueIdx.ix2 e (1 : Fin 2))).toInt.toNat (1000000 - 1) = _
      rw [col1_apply])]

/-- The host's sum over axis 1 of an `[8000000, 3]` array from zero, read at edge `e`: zero plus the row's three entries. -/
theorem hostRowSum_apply (y : FVec Ideal S8000000x3 .f32) (e : Fin 8000000) :
    Host.reduceAdd y (constant (F := Ideal) S_ .f32 0x00000000#32) reducesTo_S8000000x3_S8000000_d1 h_S_ (ValueIdx.ix1 e)
      = Ideal.ofBits .f32 0x00000000#32 + ∑ j : Fin 3, y (ValueIdx.ix2 e j) := by
  simp only [Host.reduceAdd, Ideal.hostReduceAdd_def]
  rw [Ideal.hostReduceAdd_single reducesTo_S8000000x3_S8000000_d1 (by decide)]
  refine congrArg₂ (· + ·) rfl (Finset.sum_congr rfl fun k _ => ?_)
  exact congrArg y (funext fun a => Fin.ext (by match a with | ⟨0, _⟩ => rfl | ⟨1, _⟩ => rfl))

/-- Edge `e`'s sum is the specification's squared length. -/
theorem sqLens_apply (x0 : FVec Ideal S1000000x3 .f32) (x3 : IVec S8000000x2 32) (h : SpringEnergy.InRange x3)
    (e : Fin 8000000) : sqLens x0 x3 (ValueIdx.ix1 e) = SpringEnergy.sqLen x0 x3 e := by
  unfold sqLens SpringEnergy.sqLen
  rw [hostRowSum_apply]
  refine congrArg₂ (· + ·) rfl (Finset.sum_congr rfl fun j _ => ?_)
  rw [ValueIdx.mulf_apply, diffs_apply x0 x3 h]

/-! ## Contents at a typed reference -/

/-- Contents carried to a typed reference's buffer type and back are themselves. -/
theorem ofBuf_toBuf {T : BufTy} {Val : EltTy → Type} (x : StableHlo.TRef sig T) (v : T.Contents Val) :
    x.ofBuf (x.toBuf v) = v := by
  simp only [StableHlo.TRef.ofBuf, StableHlo.TRef.toBuf, cast_cast, cast_eq]

-- a buffer's type is looked up in the signature's tables: one step of the look-up per entry before it
set_option maxRecDepth 16384

/-- At the references the takes read and write, the buffer's type is the tensor's: the transport is the identity. -/
theorem ofBuf_arg0 (h1 h2 h3) (v : (main_arg0 : Ref sig .tc).ty.Contents (Elt Ideal)) :
    (StableHlo.TRef.of main_arg0 h1 h2 h3 : StableHlo.TRef sig ⟨S1000000x3, .f32⟩).ofBuf v = v := rfl
theorem ofBuf_v1 (h1 h2 h3) (v : (main_v1 : Ref sig .tc).ty.Contents (Elt Ideal)) :
    (StableHlo.TRef.of main_v1 h1 h2 h3 : StableHlo.TRef sig ⟨S8000000, .i32⟩).ofBuf v = v := rfl
theorem ofBuf_v3 (h1 h2 h3) (v : (main_v3 : Ref sig .tc).ty.Contents (Elt Ideal)) :
    (StableHlo.TRef.of main_v3 h1 h2 h3 : StableHlo.TRef sig ⟨S8000000, .i32⟩).ofBuf v = v := rfl
theorem toBuf_v4 (h1 h2 h3) (v : (⟨S8000000x3, .f32⟩ : BufTy).Contents (Elt Ideal)) :
    (StableHlo.TRef.of main_v4 h1 h2 h3 : StableHlo.TRef sig ⟨S8000000x3, .f32⟩).toBuf v = v := rfl
theorem toBuf_v5 (h1 h2 h3) (v : (⟨S8000000x3, .f32⟩ : BufTy).Contents (Elt Ideal)) :
    (StableHlo.TRef.of main_v5 h1 h2 h3 : StableHlo.TRef sig ⟨S8000000x3, .f32⟩).toBuf v = v := rfl

/-! ## The host lines, stretch by stretch, from any contents `W` -/

section Stretches

variable (W : Valuation τ sig (Elt Ideal))

/-- The first stretch cuts the pairs into column 0, -/
theorem cols_v1 : (StableHlo.after hostOps0 W (Proc.devRef .tc main_v1) : IVec S8000000 32)
    = col0 (W (Proc.devRef .tc main_arg3)) := by
  after_results
  rfl

/-- and column 1, -/
theorem cols_v3 : (StableHlo.after hostOps0 W (Proc.devRef .tc main_v3) : IVec S8000000 32)
    = col1 (W (Proc.devRef .tc main_arg3)) := by
  after_results
  rfl

/-- and leaves the vertex table as it was. -/
theorem cols_arg0 : StableHlo.after hostOps0 W (Proc.devRef .tc main_arg0) = W (Proc.devRef .tc main_arg0) := by
  after_results

/-- The first take writes the rows at column 0's words, -/
theorem take0_v4 : (StableHlo.after hostOps0_1 W (Proc.devRef .tc main_v4) : FVec Ideal S8000000x3 .f32)
    = taken (W (Proc.devRef .tc main_arg0)) (W (Proc.devRef .tc main_v1)) := by
  after_results_simp
  simp only [ofBuf_toBuf, ofBuf_arg0, ofBuf_v1, toBuf_v4]
  unfold taken inb inbCol start wrapped
  rfl

/-- and leaves column 1's words and the vertex table as they were. -/
theorem take0_v3 : StableHlo.after hostOps0_1 W (Proc.devRef .tc main_v3) = W (Proc.devRef .tc main_v3) := by
  after_results

theorem take0_arg0 : StableHlo.after hostOps0_1 W (Proc.devRef .tc main_arg0) = W (Proc.devRef .tc main_arg0) := by
  after_results

/-- The second take writes the rows at column 1's words, -/
theorem take1_v5 : (StableHlo.after hostOps0_2 W (Proc.devRef .tc main_v5) : FVec Ideal S8000000x3 .f32)
    = taken (W (Proc.devRef .tc main_arg0)) (W (Proc.devRef .tc main_v3)) := by
  after_results_simp
  simp only [ofBuf_toBuf, ofBuf_arg0, ofBuf_v3, toBuf_v5]
  unfold taken inb inbCol start wrapped
  rfl

/-- and leaves the first take's rows as they were. -/
theorem take1_v4 : StableHlo.after hostOps0_2 W (Proc.devRef .tc main_v4) = W (Proc.devRef .tc main_v4) := by
  after_results

/-- The last stretch subtracts the two takes, squares, sums each edge's three coordinates from zero and lays the
    sums out as 625 rows of 12,800. -/
theorem sums_v9 : (StableHlo.after hostOps0_3 W (Proc.devRef .tc main_v9) : S625x12800.Idx → EReal)
    = shapeCast S625x12800
        (Host.reduceAdd (mulf (subf (W (Proc.devRef .tc main_v4) : FVec Ideal S8000000x3 .f32) (W (Proc.devRef .tc main_v5)))
            (subf (W (Proc.devRef .tc main_v4) : FVec Ideal S8000000x3 .f32) (W (Proc.devRef .tc main_v5))))
          (constant (F := Ideal) S_ .f32 0x00000000#32) reducesTo_S8000000x3_S8000000_d1 h_S_)
        shapeCasts_S8000000_S625x12800 := by
  after_results
  rfl

end Stretches

/-! ## The squared lengths the region reads -/

/-- The squared-length array the region reads, as the stages of the argument arrays: the four stretches in turn. -/
theorem sqLen_stages (c : Dev nD) :
    (V m c main_v9 : S625x12800.Idx → EReal)
      = shapeCast S625x12800 (sqLens (m ((c : Thread nD τ).loc main_arg0)) (m ((c : Thread nD τ).loc main_arg3)))
          shapeCasts_S8000000_S625x12800 := by
  dsimp only [Gen.V, Gen.V0]
  simp only [List.flatten_cons, List.flatten_nil, List.append_nil, StableHlo.after_append]
  rw [sums_v9, take1_v4, take1_v5, take0_v4, take0_v3, take0_arg0, cols_v1, cols_v3, cols_arg0]
  unfold sqLens diffs
  rfl

/-- The squared-length array the region reads: at row `r`, column `cc` the specification's squared length of edge
    `12800 r + cc`. -/
theorem sqLen_array (c : Dev nD) (h : SpringEnergy.InRange (m ((c : Thread nD τ).loc main_arg3))) :
    (V m c main_v9 : S625x12800.Idx → EReal)
      = fun y => SpringEnergy.sqLen (m ((c : Thread nD τ).loc main_arg0)) (m ((c : Thread nD τ).loc main_arg3))
          (SpringEnergy.flat (y 0) (y 1)) := by
  rw [sqLen_stages]
  funext y
  rw [reshape_apply_idx]
  exact sqLens_apply _ _ h _

end Cert.KernelIdeal.Inputs

end
-- ==== Proof.RefEnergy.lean ====
/-
  The reference program's result is the spring energy of the specification.

  The reference reads, for each edge, its two end points out of the vertex table by a gather whose start indices are the
  two columns of the index pairs, each made absolute ("`w + 1000000` if `w < 0`, else `w`") first. For index words
  in `[0, 1000000)` that step is the identity, and the gather's own clamp of the start index into `[0, 999999]` is the
  clamp the specification's `vertex` writes. From there on the program is the specification's formula read operation by
  operation: the coordinate differences, their squares summed from zero over the three coordinates, the residual against
  the squared rest length weighted by the stiffness, the sum of the edges' terms from zero, and the factor one half.
-/
import proofs.«426764_j10230612099764_2_alg».proof.Proof.Gen.ReferenceIdeal.Read
import proofs.«426764_j10230612099764_2_alg».proof.Proof.EnergySpec
import proofs.«426764_j10230612099764_2_alg».proof.Proof.LibIndexRange
import proofs.«426764_j10230612099764_2_alg».proof.Proof.LibTakeRows
import Idealize.ShloMosaic.Lib.ValueIdx
import Idealize.ShloMosaic.PureOps.Ideal.Laws

open scoped BigOperators

noncomputable section

namespace Cert.RefEnergy

open Cert.ReferenceIdeal Cert.ReferenceIdeal.Gen Cert.ReferenceIdeal.Read Idealize.ShloMosaic Idealize.ShloMosaic.ValueIdx

/-! ## Sums over the edges' index set -/

/-- The index set of a per-edge array is the range of its one coordinate. -/
def edgeIdxEquiv : S8000000.Idx ≃ Fin 8000000 where
  toFun i := i 0
  invFun e := ix1 e
  left_inv i := (eq_ix1 i).symm
  right_inv _ := rfl

/-- A sum over the indices of a per-edge array is the sum over the edges. -/
theorem sum_edgeIdx {M : Type*} [AddCommMonoid M] (f : S8000000.Idx → M) :
    ∑ i, f i = ∑ e : Fin 8000000, f (ix1 e) :=
  (Equiv.sum_comp edgeIdxEquiv.symm f).symm

/-! ## The start indices of the two gathers -/

/-- Column 0 of the index pairs, flattened: position `e` holds the word at `(e, 0)`. -/
theorem col0_apply (x3 : (⟨S8000000x2, .i32⟩ : BufTy).Contents (Elt Ideal)) (e : Fin 8000000) :
    val_main_v1 (F := Ideal) x3 (ix1 e) = x3 (ix2 e (0 : Fin 2)) := by
  rw [val_main_v1_apply, val_main_v0_apply]
  refine congrArg x3 (funext fun a => ?_)
  match a with
  | ⟨0, _⟩ => exact Fin.ext (Nat.div_one _)
  | ⟨1, _⟩ => rfl

/-- Column 1 of the index pairs, flattened: position `e` holds the word at `(e, 1)`. -/
theorem col1_apply (x3 : (⟨S8000000x2, .i32⟩ : BufTy).Contents (Elt Ideal)) (e : Fin 8000000) :
    val_main_v10 (F := Ideal) x3 (ix1 e) = x3 (ix2 e (1 : Fin 2)) := by
  rw [val_main_v10_apply, val_main_v9_apply]
  refine congrArg x3 (funext fun a => ?_)
  match a with
  | ⟨0, _⟩ => exact Fin.ext (Nat.div_one _)
  | ⟨1, _⟩ => rfl

/-- For index words in range, the first gather's start index of edge `e` is the word at `(e, 0)` itself. -/
theorem start0_apply (x3 : (⟨S8000000x2, .i32⟩ : BufTy).Contents (Elt Ideal)) (h : SpringEnergy.InRange x3)
    (e : Fin 8000000) : val_main_v7 (F := Ideal) x3 (ix2 e (0 : Fin 1)) = x3 (ix2 e (0 : Fin 2)) := by
  have hi : idx_main_v7 (ix2 e (0 : Fin 1)) = ix1 e := by
    funext a; match a with | ⟨0, _⟩ => rfl
  rw [val_main_v7_apply, hi, val_main_v6_apply, val_main_v3_apply, val_main_v5_apply, val_main_v2_apply,
    val_main_c_apply, val_main_v4_apply, val_main_c_0_apply, col0_apply]
  exact IndexRange.select_wrap_eq _ (h _).1

/-- For index words in range, the second gather's start index of edge `e` is the word at `(e, 1)` itself. -/
theorem start1_apply (x3 : (⟨S8000000x2, .i32⟩ : BufTy).Contents (Elt Ideal)) (h : SpringEnergy.InRange x3)
    (e : Fin 8000000) : val_main_v16 (F := Ideal) x3 (ix2 e (0 : Fin 1)) = x3 (ix2 e (1 : Fin 2)) := by
  have hi : idx_main_v16 (ix2 e (0 : Fin 1)) = ix1 e := by
    funext a; match a with | ⟨0, _⟩ => rfl
  rw [val_main_v16_apply, hi, val_main_v15_apply, val_main_v12_apply, val_main_v14_apply, val_main_v11_apply,
    val_main_c_1_apply, val_main_v13_apply, val_main_c_2_apply, col1_apply]
  exact IndexRange.select_wrap_eq _ (h _).1

/-! ## The two gathers -/

/-- The first gather at `(e, j)`: coordinate `j` of edge `e`'s first end point. -/
theorem end0_apply (x0 : (⟨S1000000x3, .f32⟩ : BufTy).Contents (Elt Ideal))
    (x3 : (⟨S8000000x2, .i32⟩ : BufTy).Contents (Elt Ideal)) (h : SpringEnergy.InRange x3) (e : Fin 8000000) (j : Fin 3) :
    val_main_v8 (F := Ideal) x0 x3 (ix2 e j) = x0 (ix2 (SpringEnergy.vertex x3 e 0) j) := by
  unfold val_main_v8
  refine (TakeRows.rowTake_apply (N := 1000000) (D := 3) (n := 8000000) (by norm_num)
    Cert.ReferenceIdeal.Gen.gather_S1000000x3_S8000000x1_S8000000x3_1_0_n_n_0_1_13_wf x0 (val_main_v7 (F := Ideal) x3) e j).trans ?_
  refine congrArg x0 (congrArg (fun v => ix2 v j) (Fin.ext ?_))
  show min (val_main_v7 (F := Ideal) x3 (ix2 e (0 : Fin 1))).toInt.toNat (1000000 - 1)
    = min (x3 (ix2 e (0 : Fin 2))).toInt.toNat (1000000 - 1)
  rw [start0_apply x3 h e]

/-- The second gather at `(e, j)`: coordinate `j` of edge `e`'s second end point. -/
theorem end1_apply (x0 : (⟨S1000000x3, .f32⟩ : BufTy).Contents (Elt Ideal))
    (x3 : (⟨S8000000x2, .i32⟩ : BufTy).Contents (Elt Ideal)) (h : SpringEnergy.InRange x3) (e : Fin 8000000) (j : Fin 3) :
    val_main_v17 (F := Ideal) x0 x3 (ix2 e j) = x0 (ix2 (SpringEnergy.vertex x3 e 1) j) := by
  unfold val_main_v17
  refine (TakeRows.rowTake_apply (N := 1000000) (D := 3) (n := 8000000) (by norm_num)
    Cert.ReferenceIdeal.Gen.gather_S1000000x3_S8000000x1_S8000000x3_1_0_n_n_0_1_13_wf x0 (val_main_v16 (F := Ideal) x3) e j).trans ?_
  refine congrArg x0 (congrArg (fun v => ix2 v j) (Fin.ext ?_))
  show min (val_main_v16 (F := Ideal) x3 (ix2 e (0 : Fin 1))).toInt.toNat (1000000 - 1)
    = min (x3 (ix2 e (1 : Fin 2))).toInt.toNat (1000000 - 1)
  rw [start1_apply x3 h e]

/-! ## Squared lengths, edge terms, the energy -/

/-- The row sums of the squared differences: at edge `e`, its squared length. -/
theorem sqLen_apply (x0 : (⟨S1000000x3, .f32⟩ : BufTy).Contents (Elt Ideal))
    (x3 : (⟨S8000000x2, .i32⟩ : BufTy).Contents (Elt Ideal)) (h : SpringEnergy.InRange x3) (e : Fin 8000000) :
    val_main_v20 (F := Ideal) x0 x3 (ix1 e) = SpringEnergy.sqLen x0 x3 e := by
  rw [val_main_v20_apply, val_main_cst_apply]
  unfold SpringEnergy.sqLen
  refine congrArg (_ + ·) (Finset.sum_congr rfl fun k _ => ?_)
  have hk : idx_main_v20 (ix1 e) k = ix2 e k := by
    funext a; match a with | ⟨0, _⟩ => rfl | ⟨1, _⟩ => rfl
  rw [hk, val_main_v19_apply, val_main_v18_apply, end0_apply x0 x3 h e k, end1_apply x0 x3 h e k]
  rfl

/-- The per-edge products: at edge `e`, its term of the energy. -/
theorem edgeTerm_apply (x0 : (⟨S1000000x3, .f32⟩ : BufTy).Contents (Elt Ideal))
    (x1 x2 : (⟨S8000000, .f32⟩ : BufTy).Contents (Elt Ideal)) (x3 : (⟨S8000000x2, .i32⟩ : BufTy).Contents (Elt Ideal))
    (h : SpringEnergy.InRange x3) (e : Fin 8000000) :
    val_main_v24 (F := Ideal) x0 x1 x2 x3 (ix1 e) = SpringEnergy.edgeTerm x0 x1 x2 x3 e := by
  rw [val_main_v24_apply, val_main_v23_apply, val_main_v22_apply, val_main_v21_apply, sqLen_apply x0 x3 h e]
  rfl

/-- The reference's result, at its one index, is the energy. -/
theorem ref_energy (x0 : (⟨S1000000x3, .f32⟩ : BufTy).Contents (Elt Ideal))
    (x1 x2 : (⟨S8000000, .f32⟩ : BufTy).Contents (Elt Ideal)) (x3 : (⟨S8000000x2, .i32⟩ : BufTy).Contents (Elt Ideal))
    (h : SpringEnergy.InRange x3) :
    Read.val_main_v26 (F := Ideal) x0 x1 x2 x3 = fun _ => SpringEnergy.energy x0 x1 x2 x3 := by
  funext i
  have hs : ∑ e : Fin 8000000, val_main_v24 (F := Ideal) x0 x1 x2 x3 (ix1 e)
      = ∑ e : Fin 8000000, SpringEnergy.edgeTerm x0 x1 x2 x3 e :=
    Finset.sum_congr rfl fun e _ => edgeTerm_apply x0 x1 x2 x3 h e
  rw [val_main_v26_apply, val_main_cst_4_apply, val_main_v25_apply, val_main_cst_3_apply, sum_edgeIdx, hs]
  rfl

end Cert.RefEnergy

end
-- ==== Proof.PreRange.lean ====
/-
  The range conjuncts of the precondition, read back.

  The precondition is a conjunction of five one-bit words; its last two are the conjunctions over all index words `w` of
  the signed tests `0 ≤ w` and `w < 1000000`. If the whole conjunction is 1 then each of the two is 1, so each test
  holds at every index word, and a 32-bit word that passes both has a signed value in `[0, 1000000)`.
-/
import proofs.«426764_j10230612099764_2_alg».proof.Pre_finite_inputs
import proofs.«426764_j10230612099764_2_alg».proof.Proof.EnergySpec
import proofs.«426764_j10230612099764_2_alg».proof.Proof.LibIndexRange
import Idealize.ShloMosaic.Lib.ReduceAll
import Idealize.ShloMosaic.Lib.StableHlo.Predicate
import Idealize.ShloMosaic.Lib.ValueIdx

namespace Cert.PreRange

open Idealize.ShloMosaic

/-- The shape of rank zero has one index. -/
instance : Subsingleton Cert.Pre_finite_inputs.S_.Idx := ⟨fun a b => funext fun d => d.elim0⟩

/-- Under the precondition every index word has a signed value in `[0, 1000000)`. -/
theorem inRange_of_pre [Cert.Pre_finite_inputs.Facts] {F : FTy → Type} [FloatOps F]
    (a0 : FVec F Cert.Pre_finite_inputs.S1000000x3 .f32) (a1 a2 : FVec F Cert.Pre_finite_inputs.S8000000 .f32)
    (a3 : IVec Cert.Pre_finite_inputs.S8000000x2 32)
    (h : Cert.Pre_finite_inputs.fn (F := F) a0 a1 a2 a3 = fun _ => 1#1) : SpringEnergy.InRange a3 := by
  have h0 := congrFun h ValueIdx.ix0
  dsimp only [Cert.Pre_finite_inputs.fn, Cert.Pre_finite_inputs.fn_part1, andi] at h0
  -- the outer conjunction: (first three conjuncts ∧ all (0 ≤ w)) ∧ all (w < 1000000)
  obtain ⟨h17, h20⟩ := IntOp.andi_eq_one.1 h0
  obtain ⟨_, h16⟩ := IntOp.andi_eq_one.1 h17
  intro j
  have e0 := Host.reduce_andi_all _ _ _ _ _ h16 j
  have e1 := Host.reduce_andi_all _ _ _ _ _ h20 j
  have e0' : IntOp.cmpi .sge (a3 j) 0#32 = 1#1 := e0
  have e1' : IntOp.cmpi .slt (a3 j) (BitVec.ofNat 32 1000000) = 1#1 := e1
  exact IndexRange.toInt_mem_of_cmpi 1000000 (by norm_num) e0' e1'

end Cert.PreRange
-- ==== Proof.lean ====
/-
  The spring energy of a mesh: the kernel against its reference, over the extended reals.

  Both programs compute `½ · (0 + ∑ₑ k[e] · (q[e] - l0[e]²) · (q[e] - l0[e]²))` over the 8,000,000 edges, where
  `q[e] = 0 + ∑ⱼ (x[i₀(e), j] - x[i₁(e), j])²` is the squared length of edge `e` between the two vertices its index
  pair names (`SpringEnergy.energy`, Proof/EnergySpec.lean).

  The precondition asks, beside finite float inputs, that every index word lie in `[0, 1000000)`. Outside that range
  the two programs differ: the reference's indexing clamps an index into the table, the kernel's `take` fills the row
  with NaN. Inside it both read the row the word names (Proof/PreRange.lean reads the range back from the precondition).

  The reference is the formula directly (Proof/RefEnergy.lean, over the generated run and read modules).

  The kernel forms `q` on the host (Proof/KernelInputs.lean), lays `q`, `l0`, `k` out as 625 × 12,800 arrays, and a
  ten-point grid sums the residual terms strip by strip into a one-entry accumulator, reset at the first point and
  copied out at the last (Proof/KernelBody.lean: one point; Proof/KernelRun.lean: the induction over the points, the
  write-back, the halving after the region). The ten strips are every edge once, and sums over the extended reals may
  be regrouped freely (Proof/EnergySpec.lean, Proof/KernelEnergy.lean), so the kernel's result is the same energy.
  No law used needs finiteness: only the index range of the precondition is opened.

  The frames of the two kernel programs are the generated ones; the reference's frame is its generated run with the
  result dropped; the ideal pass rewrote nothing, so `preserves` is `True`.
-/
import proofs.«426764_j10230612099764_2_alg».proof.Defs
import proofs.«426764_j10230612099764_2_alg».proof.Proof.Gen.Kernel
import proofs.«426764_j10230612099764_2_alg».proof.Proof.Gen.Kernel.Skeleton
import proofs.«426764_j10230612099764_2_alg».proof.Proof.Gen.Kernel.Launch
import proofs.«426764_j10230612099764_2_alg».proof.Proof.Gen.Kernel.Points
import proofs.«426764_j10230612099764_2_alg».proof.Proof.Gen.Kernel.Frame
import proofs.«426764_j10230612099764_2_alg».proof.Proof.Gen.KernelIdeal
import proofs.«426764_j10230612099764_2_alg».proof.Proof.Gen.KernelIdeal.Skeleton
import proofs.«426764_j10230612099764_2_alg».proof.Proof.Gen.KernelIdeal.Launch
import proofs.«426764_j10230612099764_2_alg».proof.Proof.Gen.KernelIdeal.Points
import proofs.«426764_j10230612099764_2_alg».proof.Proof.Gen.KernelIdeal.Frame
import proofs.«426764_j10230612099764_2_alg».proof.Proof.Gen.ReferenceIdeal
import proofs.«426764_j10230612099764_2_alg».proof.Proof.Gen.Pre_finite_inputs
import proofs.«426764_j10230612099764_2_alg».proof.Proof.Gen.ReferenceIdeal.Run
import proofs.«426764_j10230612099764_2_alg».proof.Proof.Gen.ReferenceIdeal.Read
import proofs.«426764_j10230612099764_2_alg».proof.Proof.KernelEnergy
import proofs.«426764_j10230612099764_2_alg».proof.Proof.KernelInputs
import proofs.«426764_j10230612099764_2_alg».proof.Proof.RefEnergy
import proofs.«426764_j10230612099764_2_alg».proof.Proof.PreRange
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

open Cert.KernelIdeal in
/-- From arguments that agree and whose index words lie in the table, both programs end at the energy of the
    arguments: the kernel's halved total and the reference's term are that one function. -/
theorem algebraic : Cert.algebraic_KernelIdeal_ReferenceIdeal := by
  intro m ρ m' ρ' hpre hagree
  have hr : ∀ c : Dev nD, SpringEnergy.InRange (m ((c : Thread nD τ).loc main_arg3)) :=
    fun c => Cert.PreRange.inRange_of_pre _ _ _ _ (hpre c)
  refine ⟨fun c _ => SpringEnergy.energy (m ((c : Thread nD τ).loc main_arg0)) (m ((c : Thread nD τ).loc main_arg1))
    (m ((c : Thread nD τ).loc main_arg2)) (m ((c : Thread nD τ).loc main_arg3)), ?_, ?_⟩
  · refine (θ_run Cert.KernelIdeal.defs _ _).mono (fun _ h c => ⟨(h c).1.trans ?_, (h c).2⟩) (Cert.KernelIdeal.Run.run m ρ)
    funext _
    exact Cert.KernelIdeal.Energy.half_total_eq m c _ _ _ _ (Cert.KernelIdeal.Inputs.sqLen_array m c (hr c))
      (Cert.KernelIdeal.Inputs.rest_array m c) (Cert.KernelIdeal.Inputs.stiff_array m c)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v26_eq, (hagree c).1, (hagree c).2.1, (hagree c).2.2.1, (hagree c).2.2.2]
    exact Cert.RefEnergy.ref_energy _ _ _ _ (hr c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
